-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x300 : Shape := ⟨3, ![256, 2048, 300]⟩
abbrev S256x64x300 : Shape := ⟨3, ![256, 64, 300]⟩
abbrev S_ : Shape := ⟨0, ![]⟩

class Facts : Prop where
  bcast_S_S256x2048x300 : S_.BroadcastsInDim S256x2048x300 (![] : Fin 0 → Fin S256x2048x300.rank)
  reducesTo_S256x2048x300_S_d0_1_2 : S256x2048x300.ReducesTo [0, 1, 2] S_
  h_S_ : 0 < S_.numel
  bcast_S_S256x64x300 : S_.BroadcastsInDim S256x64x300 (![] : Fin 0 → Fin S256x64x300.rank)
  reducesTo_S256x64x300_S_d0_1_2 : S256x64x300.ReducesTo [0, 1, 2] S_

variable [Facts]

def fn {F : FTy → Type} [FloatOps F] (main_arg0 : FVec F S256x2048x300 .f32) (main_arg1 : FVec F S256x64x300 .f32) : IVec S_ 1 :=
  let main_v0 : FVec F S256x2048x300 .f32 := Host.absf main_arg0
  let main_cst : FVec F S_ .f32 := constant S_ .f32 0x7F800000#32
  let main_v1 : FVec F S256x2048x300 .f32 := broadcastInDim S256x2048x300 ![] bcast_S_S256x2048x300 main_cst
  let main_v2 : IVec S256x2048x300 1 := cmpf .olt main_v0 main_v1
  let main_c : IVec S_ 1 := constantI S_ 1 1#1
  let main_v3 : IVec S_ 1 := (fun x v => Host.reduce IntOp.andi x v reducesTo_S256x2048x300_S_d0_1_2 h_S_) main_v2 main_c
  let main_v4 : FVec F S256x64x300 .f32 := Host.absf main_arg1
  let main_cst_0 : FVec F S_ .f32 := constant S_ .f32 0x7F800000#32
  let main_v5 : FVec F S256x64x300 .f32 := broadcastInDim S256x64x300 ![] bcast_S_S256x64x300 main_cst_0
  let main_v6 : IVec S256x64x300 1 := cmpf .olt main_v4 main_v5
  let main_c_1 : IVec S_ 1 := constantI S_ 1 1#1
  let main_v7 : IVec S_ 1 := (fun x v => Host.reduce IntOp.andi x v reducesTo_S256x64x300_S_d0_1_2 h_S_) main_v6 main_c_1
  let main_v8 : IVec S_ 1 := andi main_v3 main_v7
  main_v8
-- ==== Kernel.lean ====
abbrev S256x2048x300 : Shape := ⟨3, ![256, 2048, 300]⟩
abbrev S256x64x300 : Shape := ⟨3, ![256, 64, 300]⟩
abbrev S256x300 : Shape := ⟨2, ![256, 300]⟩
abbrev S32x256x300 : Shape := ⟨3, ![32, 256, 300]⟩
abbrev S32x300 : Shape := ⟨2, ![32, 300]⟩
abbrev S32x64x300 : Shape := ⟨3, ![32, 64, 300]⟩
abbrev S256x600 : Shape := ⟨2, ![256, 600]⟩

abbrev nBuf : Space → Nat
  | .hbm => 5
  | .vmem => 9
  | .smem => 0
  | _ => 0

abbrev bufTy : (tb : Table) → Fin (tcTables nBuf tb) → BufTy
  | .hbm, ⟨0, _⟩ => ⟨S256x2048x300, .f32⟩
  | .hbm, ⟨1, _⟩ => ⟨S256x64x300, .f32⟩
  | .hbm, ⟨2, _⟩ => ⟨S256x300, .f32⟩
  | .hbm, ⟨3, _⟩ => ⟨S256x300, .f32⟩
  | .hbm, ⟨4, _⟩ => ⟨S256x600, .f32⟩
  | .local _ .vmem, ⟨0, _⟩ => ⟨S32x256x300, .f32⟩
  | .local _ .vmem, ⟨1, _⟩ => ⟨S32x256x300, .f32⟩
  | .local _ .vmem, ⟨2, _⟩ => ⟨S32x300, .f32⟩
  | .local _ .vmem, ⟨3, _⟩ => ⟨S32x300, .f32⟩
  | .local _ .vmem, ⟨4, _⟩ => ⟨S32x300, .f32⟩
  | .local _ .vmem, ⟨5, _⟩ => ⟨S32x64x300, .f32⟩
  | .local _ .vmem, ⟨6, _⟩ => ⟨S32x64x300, .f32⟩
  | .local _ .vmem, ⟨7, _⟩ => ⟨S32x300, .f32⟩
  | .local _ .vmem, ⟨8, _⟩ => ⟨S32x300, .f32⟩
  | _, _ => ⟨S256x2048x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x64x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S32x300_S32x300_0_0 : ∀ a, (![0, 0] : Fin 2 → Nat) a + S32x300.size a ≤ S32x300.size a
  h_S32x300 : 0 < S32x300.numel
  shapeCasts_S32x300_S32x300 : S32x300.ShapeCasts S32x300
  inb_S32x256x300_S32x256x300_0_0_0 : ∀ a, (![0, 0, 0] : Fin 3 → Nat) a + S32x256x300.size a ≤ S32x256x300.size a
  h_S32x256x300 : 0 < S32x256x300.numel
  reduces_S32x256x300_S32x300 : S32x256x300.Reduces [1] S32x300
  inb_S32x64x300_S32x64x300_0_0_0 : ∀ a, (![0, 0, 0] : Fin 3 → Nat) a + S32x64x300.size a ≤ S32x64x300.size a
  h_S32x64x300 : 0 < S32x64x300.numel
  reduces_S32x64x300_S32x300 : S32x64x300.Reduces [1] S32x300
  concatenates_S256x300_S256x300_S256x600_d1 : Shape.Concatenates [S256x300, S256x300] S256x600 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x300.size a ≤ S256x2048x300.size a
  hwx0_0 : ∀ i : grid0.Coords, EltTy.bits .f32 = 32 ∨ (Rect.block (s := S256x2048x300) S32x256x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x300.size a ≤ S256x300.size a
  hwx0_1 : ∀ i : grid0.Coords, EltTy.bits .f32 = 32 ∨ (Rect.block (s := S256x300) S32x300.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x300.size a ≤ S256x64x300.size a
  hwx1_0 : ∀ i : grid1.Coords, EltTy.bits .f32 = 32 ∨ (Rect.block (s := S256x64x300) S32x64x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x300.size a ≤ S256x300.size a
  hwx1_1 : ∀ i : grid1.Coords, EltTy.bits .f32 = 32 ∨ (Rect.block (s := S256x300) S32x300.size (cc1_transform_1 i) (hinb1_1 i)).WholeWords (EltTy.packing .f32)

variable [Facts₀]

abbrev win0_0 : Pipeline.Window sig grid0 :=
  Pipeline.Window.ofSpec (Memref.whole main_arg0) S32x256x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x300.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S32x64x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x300.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S256x2048x300 : Shape := ⟨3, ![256, 2048, 300]⟩
abbrev S256x64x300 : Shape := ⟨3, ![256, 64, 300]⟩
abbrev S_ : Shape := ⟨0, ![]⟩
abbrev S256x300 : Shape := ⟨2, ![256, 300]⟩
abbrev S256x600 : Shape := ⟨2, ![256, 600]⟩

abbrev nBuf : Space → Nat
  | .hbm => 13
  | .vmem => 0
  | .smem => 0
  | _ => 0

abbrev bufTy : (tb : Table) → Fin (tcTables nBuf tb) → BufTy
  | .hbm, ⟨0, _⟩ => ⟨S256x2048x300, .f32⟩
  | .hbm, ⟨1, _⟩ => ⟨S256x64x300, .f32⟩
  | .hbm, ⟨2, _⟩ => ⟨S_, .f32⟩
  | .hbm, ⟨3, _⟩ => ⟨S256x300, .f32⟩
  | .hbm, ⟨4, _⟩ => ⟨S_, .f32⟩
  | .hbm, ⟨5, _⟩ => ⟨S256x300, .f32⟩
  | .hbm, ⟨6, _⟩ => ⟨S256x300, .f32⟩
  | .hbm, ⟨7, _⟩ => ⟨S_, .f32⟩
  | .hbm, ⟨8, _⟩ => ⟨S256x300, .f32⟩
  | .hbm, ⟨9, _⟩ => ⟨S_, .f32⟩
  | .hbm, ⟨10, _⟩ => ⟨S256x300, .f32⟩
  | .hbm, ⟨11, _⟩ => ⟨S256x300, .f32⟩
  | .hbm, ⟨12, _⟩ => ⟨S256x600, .f32⟩
  | _, _ => ⟨S256x2048x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  reducesTo_S256x2048x300_S256x300_d1 : S256x2048x300.ReducesTo [1] S256x300
  h_S_ : 0 < S_.numel
  bcast_S_S256x300 : S_.BroadcastsInDim S256x300 (![] : Fin 0 → Fin S256x300.rank)
  reducesTo_S256x64x300_S256x300_d1 : S256x64x300.ReducesTo [1] S256x300
  concatenates_S256x300_S256x300_S256x600_d1 : Shape.Concatenates [S256x300, S256x300] S256x600 1

variable [Facts₀]

class Facts : Prop extends Facts₀ where

variable [Facts]
-- ==== Proof.K.Mean0.lean ====
/-
  The first pooling kernel (the article tensor) on its 8 × 8 grid: the outer coordinate picks a tile of 32 batch
  rows, the inner one a chunk of 256 words. A [32, 300] scratch carries the running word-axis sum across the inner
  coordinate: zeroed where the inner coordinate is 0, the chunk's sum added at every point, and at inner coordinate 7
  the total, scaled by 1/2048, is stored into the result block.
  Here: the scratch's contents after each point, by recursion on the point; the region's invariant that carries
  them; what each window's staging buffer holds after the body; the body's specification at every point.
-/
import proofs.«141562_j26147760898611_1_alg».proof.Proof.Gen.Kernel.Launch
import proofs.«141562_j26147760898611_1_alg».proof.Proof.Gen.Kernel.Skeleton
import proofs.«141562_j26147760898611_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the first kernel at grid point `t`, read off the window's array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running word-axis sum the scratch holds after the point at position `n` (points run row-major, the inner
    coordinate is `n % 8`): the chunk's sum added to zero where the inner coordinate is 0, else to what the point
    before left. -/
def acc0 (c : Dev nD) : (n : ℕ) → n < cfg0.N → Vec F S32x300 .f32
  | 0, h => k0_pay2 (k0_pay1 (F := F)) (blk0 V c 0 ⟨0, h⟩)
  | n + 1, h =>
    if (n + 1) % 8 = 0 then k0_pay2 (k0_pay1 (F := F)) (blk0 V c 0 ⟨n + 1, h⟩)
    else k0_pay2 (acc0 c n (Nat.lt_of_succ_lt h)) (blk0 V c 0 ⟨n + 1, h⟩)

/-- The scratch as the kernel is handed it. -/
abbrev scr0 : Memref sig .tc .vmem S32x300 .f32 := Memref.whole cc0_scratch0

/-- The core's scoped buffers that the first kernel neither stages through nor uses as scratch (the second kernel's
    staging buffers), each whole at some contents. -/
def idleScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's invariant before the point at position `n`: before the first point every scoped buffer that is no
    staging buffer of this kernel at some contents and the generator register at some state; afterwards the scratch
    at the running sum the point before left, the other scoped buffers and the register as before. -/
def Phi0 (c : Dev nD) : (n : ℕ) → n ≤ cfg0.N → sProp 𝕄
  | 0, _ => Pipeline.ΦA spec0 c
  | n + 1, hn => iprop(owns (c : Thread nD τ) scr0 fullShare (acc0 V c n hn) ∗ idleScoped0 c ∗ (∃ r, prngReg c r))

/-- After the body at point `t`: the input's buffer still holds its block; the output's holds the scaled running sum
    (read only where the inner coordinate is 7, the one place the kernel stores it and the pipeline writes it back). -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay3 (acc0 V c t.val t.isLt)
  Φ t := Phi0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = k0_pay3 (acc0 V c t.val t.isLt) := by dsimp only [dat0]

/-- The running sum restarts where the inner coordinate is 0 … -/
theorem acc0_restart (c : Dev nD) (t : Fin cfg0.N) (h : t.val % 8 = 0) :
    acc0 V c t.val t.isLt = k0_pay2 (k0_pay1 (F := F)) (blk0 V c 0 t) := by
  -- by cases on the position: at position 0 this is the recursion's base, at a later one its first branch
  obtain ⟨n, hn⟩ := t
  cases n with
  | zero => rfl
  | succ n => exact if_pos h
/-- … and elsewhere adds the chunk's sum to what the point before left. -/
theorem acc0_step (c : Dev nD) (t : Fin cfg0.N) (h : t.val % 8 ≠ 0) :
    acc0 V c t.val t.isLt = k0_pay2 (acc0 V c (t.val - 1) (Nat.lt_of_le_of_lt (Nat.sub_le _ _) t.isLt)) (blk0 V c 0 t) := by
  -- position 0 has inner coordinate 0, so it is no case; at a later position this is the recursion's second branch
  obtain ⟨n, hn⟩ := t
  cases n with
  | zero => exact absurd (Nat.zero_mod _) h
  | succ n => exact if_neg h

/-! ## The two tests the body makes on the inner coordinate -/

/-- "The inner coordinate is 0", as the body computes it from the grid coordinates: the test guarding the scratch's reset. -/
private abbrev atStart0 (i : grid0.Coords) : Prop :=
  (Scalar.cmpi .ne (Scalar.extui (Scalar.cmpi .eq (BitVec.ofNat 32 (i 1).val) 0#32)) 0#32) = 1#1
/-- "The inner coordinate is 7", as the body computes it: the test guarding the store of the mean. -/
private abbrev atEnd0 (i : grid0.Coords) : Prop := k0_cond2 i = 1#1

/-- Points run row-major over the 8 × 8 grid, so the inner coordinate of the point at position t is t mod 8: the first
    test holds exactly at the positions ≡ 0 (mod 8), -/
private theorem atStart0_iff : ∀ t : Fin cfg0.N, atStart0 (grid0.coords t) ↔ t.val % 8 = 0 :=
  (by decide +kernel : ∀ t : Fin grid0.N, atStart0 (grid0.coords t) ↔ t.val % 8 = 0)
/-- and the second exactly at the positions ≡ 7 (mod 8). -/
private theorem atEnd0_iff : ∀ t : Fin cfg0.N, atEnd0 (grid0.coords t) ↔ t.val % 8 = 7 :=
  (by decide +kernel : ∀ t : Fin grid0.N, atEnd0 (grid0.coords t) ↔ t.val % 8 = 7)

/-! ## Where the windows are idle

The input is read at every point. The output is stored only under the second test: where it fails the body leaves the
output's buffer untouched and the block is not written back; where it holds the buffer is stored into. -/

private theorem in_live0 (i : grid0.Coords) : cfg0.idle 0 i = false := rfl
private theorem out_idle0 (i : grid0.Coords) (h : ¬atEnd0 i) : cfg0.idle 1 i = true := by
  show (!(k0_cond2 i == 1#1)) = true
  rw [Bool.not_eq_true', beq_eq_false_iff_ne]; exact h
private theorem out_live0 (i : grid0.Coords) (h : atEnd0 i) : cfg0.idle 1 i = false := by
  show (!(k0_cond2 i == 1#1)) = false
  rw [Bool.not_eq_false', beq_iff_eq]; exact h
private theorem out_kept0 (t : Fin cfg0.N) (h : ¬t.val % 8 = 7) : (cfg0.win 1).flush t = false :=
  Bool.eq_false_iff.mpr fun hf => h ((flush0_1 t).mp hf)

/-! ## Whole-buffer loads and stores

Every load and store of the body goes through the rectangle that is the whole buffer: offsets zero, the buffer's own
sizes. A load through it reads what the buffer holds; a store through it, made last, leaves exactly its payload; a load
after one such store reads that payload. -/

private theorem origin2 : (![0, 0] : Fin 2 → Nat) = fun _ => 0 := funext fun a => by fin_cases a <;> rfl
private theorem origin3 : (![0, 0, 0] : Fin 3 → Nat) = fun _ => 0 := funext fun a => by fin_cases a <;> rfl

private theorem load_sum0 (m : Memref sig .tc .vmem S32x300 .f32) (hm : m.IsWhole) (X : Vec F S32x300 .f32) :
    View.readAt (Elt F) m.view (Rect.unit ![0, 0] S32x300.size inb_S32x300_S32x300_0_0).toLoadRect (hm.unread X) = X := by
  rw [View.readAt_eq_ld, hm.read_unread, View.ld_unit_zero origin2]

private theorem load_chunk0 (m : Memref sig .tc .vmem S32x256x300 .f32) (hm : m.IsWhole) (X : Vec F S32x256x300 .f32) :
    View.readAt (Elt F) m.view (Rect.unit ![0, 0, 0] S32x256x300.size inb_S32x256x300_S32x256x300_0_0_0).toLoadRect (hm.unread X) = X := by
  rw [View.readAt_eq_ld, hm.read_unread, View.ld_unit_zero origin3]

private theorem store_sum0 (m : Memref sig .tc .vmem S32x300 .f32) (f : m.view.ty.Contents (Elt F)) (w : Vec F S32x300 .f32)
    (L : List (View.Piece (Elt F) S32x300 .f32)) :
    m.view.read (Elt F) (m.view.writes (Elt F) f (⟨Rect.unit ![0, 0] S32x300.size inb_S32x300_S32x300_0_0, w⟩ :: L)) = w := by
  rw [View.read_writes_eq_canon _ _ _ (fun y => ⟨_, List.mem_cons.mpr (Or.inl rfl), View.mem_set_unit_zero origin2 inb_S32x300_S32x300_0_0 y⟩)]
  exact View.canon_cons_unit_zero origin2 _ w L

private theorem reload_sum0 (m : Memref sig .tc .vmem S32x300 .f32) (w : Vec F S32x300 .f32) :
    m.view.readCov [(⟨Rect.unit ![0, 0] S32x300.size inb_S32x300_S32x300_0_0, w⟩ : View.Piece (Elt F) S32x300 .f32)]
      (Rect.unit ![0, 0] S32x300.size inb_S32x300_S32x300_0_0).toLoadRect = w :=
  View.readCov_unit_zero _ origin2 _ w

/-! ## The body on whole staging memrefs, case by case

Three cases meet the grid: inner coordinate 0 (reset, then add; no output), strictly between 0 and 7 (add only),
7 (add, then output). In each the input's buffer holds a chunk x; what the scratch and the output end with is named
by the body's arithmetic: the scratch at the chunk's sum added to what it held (zero after a reset), the output at
that total scaled. -/

/-- Inner coordinate 0 (and not 7): the scratch, whatever it held, is zeroed and then holds the chunk's sum added to
    zero; the input's and the output's buffers are left as they were. -/
private theorem body_reset0 (c : Dev nD) (i : grid0.Coords)
    (arg2 : Memref sig .tc .vmem S32x256x300 .f32) (harg2 : arg2.IsWhole)
    (arg3 : Memref sig .tc .vmem S32x300 .f32) (harg3 : arg3.IsWhole)
    (arg4 : Memref sig .tc .vmem S32x300 .f32) (harg4 : arg4.IsWhole)
    (hc0 : atStart0 i) (hc1 : ¬atEnd0 i)
    (x : Vec F S32x256x300 .f32) (y : Vec F S32x300 .f32) (E : Set ℕ) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (k0_pay2 (k0_pay1 (F := F)) x)) -∗ K ⟨⟩))
      ⊢ wp frame (wpE (defs₀ (F := F)) Variants.none c none) E (cc0__mean_reduce_kernel i arg2 harg2 arg3 harg3 arg4 harg4) K := by
  simp only [cc0__mean_reduce_kernel_eq_skeleton]; unfold cc0__mean_reduce_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  -- the last store's payload: the chunk's sum added to the zero block read back after the reset
  sl_unfold_run_names
  rw [store_sum0, reload_sum0, load_chunk0]

/-- Inner coordinate strictly between 0 and 7: the scratch, holding s, ends at the chunk's sum added to s; the input's
    and the output's buffers are left as they were. -/
private theorem body_add0 (c : Dev nD) (i : grid0.Coords)
    (arg2 : Memref sig .tc .vmem S32x256x300 .f32) (harg2 : arg2.IsWhole)
    (arg3 : Memref sig .tc .vmem S32x300 .f32) (harg3 : arg3.IsWhole)
    (arg4 : Memref sig .tc .vmem S32x300 .f32) (harg4 : arg4.IsWhole)
    (hc0 : ¬atStart0 i) (hc1 : ¬atEnd0 i)
    (x : Vec F S32x256x300 .f32) (y : Vec F S32x300 .f32) (s : Vec F S32x300 .f32) (E : Set ℕ) (K : PUnit → sProp 𝕄) :
    iprop(owns (c : Thread nD τ) arg2 fullShare x ∗ owns (c : Thread nD τ) arg3 fullShare y ∗ owns (c : Thread nD τ) arg4 fullShare s
        ∗ (iprop(owns (c : Thread nD τ) arg2 fullShare x ∗ owns (c : Thread nD τ) arg3 fullShare y ∗ owns (c : Thread nD τ) arg4 fullShare (k0_pay2 s x)) -∗ K ⟨⟩))
      ⊢ wp frame (wpE (defs₀ (F := F)) Variants.none c none) E (cc0__mean_reduce_kernel i arg2 harg2 arg3 harg3 arg4 harg4) K := by
  simp only [cc0__mean_reduce_kernel_eq_skeleton]; unfold cc0__mean_reduce_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [store_sum0, load_sum0, load_chunk0]

/-- Inner coordinate 7 (and not 0): the scratch, holding s, ends at the chunk's sum added to s, and the output's
    buffer, whatever it held, at that total scaled by 1/2048; the input's buffer is left as it was. -/
private theorem body_finish0 (c : Dev nD) (i : grid0.Coords)
    (arg2 : Memref sig .tc .vmem S32x256x300 .f32) (harg2 : arg2.IsWhole)
    (arg3 : Memref sig .tc .vmem S32x300 .f32) (harg3 : arg3.IsWhole)
    (arg4 : Memref sig .tc .vmem S32x300 .f32) (harg4 : arg4.IsWhole)
    (hc0 : ¬atStart0 i) (hc1 : atEnd0 i)
    (x : Vec F S32x256x300 .f32) (s : Vec F S32x300 .f32) (E : Set ℕ) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (k0_pay3 (k0_pay2 s x)) ∗ owns (c : Thread nD τ) arg4 fullShare (k0_pay2 s x)) -∗ K ⟨⟩))
      ⊢ wp frame (wpE (defs₀ (F := F)) Variants.none c none) E (cc0__mean_reduce_kernel i arg2 harg2 arg3 harg3 arg4 harg4) K := by
  simp only [cc0__mean_reduce_kernel_eq_skeleton]; unfold cc0__mean_reduce_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    -- the output's one store: the scaled read-back of the total just stored into the scratch
    sl_unfold_run_names
    rw [store_sum0, reload_sum0, load_sum0, load_chunk0]
  iexists _; isplitr
  swap; · iexact HS
  ipureintro
  sl_unfold_run_names
  rw [store_sum0, load_sum0, load_chunk0]

/-! ## The invariant, opened -/

/-- What the region is entered with, the scratch singled out: the scratch at some contents, the other scoped buffers
    and the generator register as the invariant keeps them. -/
private theorem PhiA_scratch0 (c : Dev nD) :
    (Pipeline.ΦA spec0 c : sProp 𝕄)
      = iprop((∃ d, owns (c : Thread nD τ) scr0 fullShare d) ∗ idleScoped0 (F := F) c ∗ (∃ r, prngReg c r)) := by
  unfold Pipeline.ΦA idleScoped0; rw [scopedRest0_eq]; simp only [scr0, owns_whole]
  -- the two sides differ only in how the separating conjunction is bracketed
  exact _root_.Idealize.SL.BI.sep_assoc.antisymm _root_.Idealize.SL.BI.sep_assoc'

/-- After the point at position n the scratch holds the running sum that point left. -/
private theorem Phi0_next (c : Dev nD) (n : ℕ) (hn : n < cfg0.N) :
    Phi0 V c (n + 1) hn
      = iprop(owns (c : Thread nD τ) scr0 fullShare (acc0 V c n hn) ∗ idleScoped0 c ∗ (∃ r, prngReg c r)) := rfl

/-- Before a point that is not the first it holds what the point before left. -/
private theorem Phi0_later (c : Dev nD) (n : ℕ) (h : n ≤ cfg0.N) (hz : n ≠ 0) :
    Phi0 V c n h
      = iprop(owns (c : Thread nD τ) scr0 fullShare (acc0 V c (n - 1) (by omega)) ∗ idleScoped0 c ∗ (∃ r, prngReg c r)) := by
  cases n with
  | zero => exact absurd rfl hz
  | succ n => rfl

/-- At any position the invariant yields the scratch at SOME contents: all a point that resets it needs, and all the
    region hands back. -/
private theorem Phi0_forget (c : Dev nD) (n : ℕ) (h : n ≤ cfg0.N) :
    Phi0 V c n h ⊢ iprop((∃ d, owns (c : Thread nD τ) scr0 fullShare d) ∗ idleScoped0 (F := F) c ∗ (∃ r, prngReg c r)) := by
  cases n with
  | zero =>
    rw [show Phi0 V c 0 h = Pipeline.ΦA spec0 c from rfl, PhiA_scratch0]
  | succ n =>
    rw [Phi0_next]
    iintro ⟨HS, Hi, Hg⟩
    isplitl [HS]; · iexists _; iexact HS
    isplitl [Hi]; · iexact Hi
    iexact Hg

/-- The invariant at a point's start, restated at the point's position. -/
private theorem Phi0_start (c : Dev nD) (t : Fin cfg0.N) :
    (dat0 V c).Φ t.castSucc = Phi0 V c t.val (Nat.le_of_lt t.isLt) := by
  dsimp only [dat0]; simp only [Fin.coe_castSucc]

/-! ## What the body finds in the input's buffer -/

/-- The input's current staging buffer holds its block at every point, fetched there or not: where the pipeline does
    not fetch, the block index has not moved and the body left the block in place. -/
private theorem found_in0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-! ## The body at a generic point -/

/-- Each window's current staging memref at point `t`, as the pipeline passes it to the body, and its wholeness. -/
private abbrev inM0 (t : Fin cfg0.N) : Memref sig .tc .vmem S32x256x300 .f32 := win0_0.stage (cfg0.slots t 0)
private abbrev inW0 (t : Fin cfg0.N) : (inM0 t).IsWhole := hstage0_0 ((cfg0.slots t 0).cast nbuf0_0)
private abbrev outM0 (t : Fin cfg0.N) : Memref sig .tc .vmem S32x300 .f32 := win0_1.stage (cfg0.slots t 1)
private abbrev outW0 (t : Fin cfg0.N) : (outM0 t).IsWhole := hstage0_1 ((cfg0.slots t 1).cast nbuf0_1)

set_option maxHeartbeats 1600000 in
/-- The body at any point. The input's buffer holds the point's block. By the inner coordinate t mod 8 the point is
    in one of the three cases. At 0 the invariant need only yield the scratch at some contents, and the scratch ends
    at the restarted sum; elsewhere the point is not the first, the invariant yields the scratch at what the point
    before left, and the scratch ends at the sum continued. Where the inner coordinate is not 7 the output's buffer is
    handed back as found; at 7 it ends at the scaled total. The core owes nothing throughout. -/
private theorem body_at0 (c : Dev nD) (t : Fin cfg0.N) :
    iprop((dat0 V c).Φ t.castSucc ∗ (dat0 V c).owesAt () t.castSucc
        ∗ (∃ d, owns (c : Thread nD τ) (inM0 t) fullShare ((dat0 V c).before 0 t d))
        ∗ (∃ d, owns (c : Thread nD τ) (outM0 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t)) := by
  unfold bodyAt0
  simp only [found_in0]
  rw [show (dat0 V c).owesAt () t.succ = (dat0 V c).owesAt () t.castSucc from rfl]
  rw [show (dat0 V c).Φ t.succ = Phi0 V c (t.val + 1) t.isLt from rfl, Phi0_next, Phi0_start]
  rw [show (dat0 V c).leavesExact 0 t = owns (c : Thread nD τ) (inM0 t) fullShare ((dat0 V c).after 0 t) from by
    unfold Dat.leavesExact; rw [in_live0], dat0_after0]
  have hN : t.val < 64 := lt_of_lt_of_eq t.isLt (show cfg0.N = 64 from N_0)
  by_cases h0 : t.val % 8 = 0
  · -- inner coordinate 0: reset
    have h7 : ¬t.val % 8 = 7 := by omega
    have hc1 : ¬atEnd0 (grid0.coords t) := fun h => h7 ((atEnd0_iff t).mp h)
    rw [Dat.leavesExact_idle (dat0 V c) 1 t (out_idle0 _ hc1) (out_kept0 t h7), acc0_restart V c t h0]
    iintro ⟨HΦ, Ho, ⟨%d0, H0⟩, ⟨%d1, H1⟩⟩
    ihave ⟨HS, Hi, Hg⟩ := (Phi0_forget V c _ _) $$ HΦ
    iapply (body_reset0 c (grid0.coords t) _ _ _ _ _ _ ((atStart0_iff t).mpr h0) hc1 (blk0 V c 0 t) _ Set.univ _)
    isplitl [H0]; · iexact H0
    isplitl [H1]; · iexact H1
    isplitl [HS]; · iexact HS
    iintro ⟨H0, H1, HS⟩
    isplitl [HS Hi Hg]
    · isplitl [HS]; · iexact HS
      isplitl [Hi]; · iexact Hi
      iexact Hg
    isplitl [Ho]; · iexact Ho
    isplitl [H0]; · iexact H0
    iexists _; iexact H1
  · have hz : t.val ≠ 0 := fun h => h0 (by rw [h])
    have hc0 : ¬atStart0 (grid0.coords t) := fun h => h0 ((atStart0_iff t).mp h)
    rw [Phi0_later V c _ _ hz, acc0_step V c t h0]
    by_cases h7 : t.val % 8 = 7
    · -- inner coordinate 7: add, then output
      have hc1 : atEnd0 (grid0.coords t) := (atEnd0_iff t).mpr h7
      rw [show (dat0 V c).leavesExact 1 t = owns (c : Thread nD τ) (outM0 t) fullShare ((dat0 V c).after 1 t) from by
        unfold Dat.leavesExact; rw [out_live0 _ hc1], dat0_after1, acc0_step V c t h0]
      iintro ⟨⟨HS, Hi, Hg⟩, Ho, ⟨%d0, H0⟩, ⟨%d1, H1⟩⟩
      iapply (body_finish0 c (grid0.coords t) _ _ _ _ _ _ hc0 hc1 (blk0 V c 0 t) _ Set.univ _)
      isplitl [H0]; · iexact H0
      isplitl [H1]; · iexists _; iexact H1
      isplitl [HS]; · iexact HS
      iintro ⟨H0, H1, HS⟩
      isplitl [HS Hi Hg]
      · isplitl [HS]; · iexact HS
        isplitl [Hi]; · iexact Hi
        iexact Hg
      isplitl [Ho]; · iexact Ho
      isplitl [H0]; · iexact H0
      iexact H1
    · -- inner coordinate strictly between: add only
      have hc1 : ¬atEnd0 (grid0.coords t) := fun h => h7 ((atEnd0_iff t).mp h)
      rw [Dat.leavesExact_idle (dat0 V c) 1 t (out_idle0 _ hc1) (out_kept0 t h7)]
      iintro ⟨⟨HS, Hi, Hg⟩, Ho, ⟨%d0, H0⟩, ⟨%d1, H1⟩⟩
      iapply (body_add0 c (grid0.coords t) _ _ _ _ _ _ hc0 hc1 (blk0 V c 0 t) _ _ Set.univ _)
      isplitl [H0]; · iexact H0
      isplitl [H1]; · iexact H1
      isplitl [HS]; · iexact HS
      iintro ⟨H0, H1, HS⟩
      isplitl [HS Hi Hg]
      · isplitl [HS]; · iexact HS
        isplitl [Hi]; · iexact Hi
        iexact Hg
      isplitl [Ho]; · iexact Ho
      isplitl [H0]; · iexact H0
      iexists _; iexact H1

/-- The body's specification at every grid point. -/
theorem body_obligation0 (c : Dev nD) : BodyObligation (dat0 (F := F) V c) (defs₀ (F := F)) Variants.none () Set.univ := by
  -- the windows one by one, then the body at the point
  intro t
  rw [bigSep_W0, bigSep_W0]
  exact body_at0 V c t

/-- What the region is entered with is the invariant before the first point. -/
theorem Phi0_in (c : Dev nD) : (Pipeline.ΦA spec0 c : sProp 𝕄) ⊢ (dat0 V c).Φ 0 := by
  rw [show (dat0 V c).Φ 0 = Phi0 V c 0 (Nat.zero_le _) from rfl]
  exact Idealize.SL.BI.Entails.refl _

/-- After the last point the invariant gives back what the region was entered with (the running sum's value forgotten). -/
theorem Phi0_out (c : Dev nD) : (dat0 V c).Φ (Fin.last cfg0.N) ⊢ (Pipeline.ΦA spec0 c : sProp 𝕄) := by
  -- the running sum's value is forgotten: the scratch at some contents is what the region was entered with
  rw [show (dat0 V c).Φ (Fin.last cfg0.N) = Phi0 V c cfg0.N (Nat.le_refl _) from rfl, PhiA_scratch0]
  exact Phi0_forget V c _ _

end Cert.Kernel.Hand

end
-- ==== Proof.K.Mean1.lean ====
/-
  The second pooling kernel (the options tensor), one grid point per tile of 32 batch rows: the body loads the
  whole [32, 64, 300] block, sums it over the word axis, scales by 1/64 and stores the [32, 300] result block whole.
  Here: what each window's staging buffer holds after the body at a point, as a function of the input block, and
  the body's specification at every point.
-/
import proofs.«141562_j26147760898611_1_alg».proof.Proof.Gen.Kernel.Launch
import proofs.«141562_j26147760898611_1_alg».proof.Proof.Gen.Kernel.Skeleton
import proofs.«141562_j26147760898611_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the second kernel at grid point `t`, read off the window's array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`: the input's buffer still holds its block; the output's holds the scaled word-axis sum of it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => k1_pay1 (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = k1_pay1 (blk1 V c 0 t) := by dsimp only [dat1]

/-! ## The two whole-block rectangles start at the origin -/

private theorem origin2 : (![0, 0] : Fin 2 → Nat) = fun _ => 0 := by funext a; fin_cases a <;> rfl
private theorem origin3 : (![0, 0, 0] : Fin 3 → Nat) = fun _ => 0 := by funext a; fin_cases a <;> rfl

/-! ## The input's buffer holds the point's block whenever the body runs -/

/-- The input window is never cut and never idle, and the body leaves its block where it found it; so whether or
    not the tile was fetched at this very point, its staging buffer reads the point's block of the options tensor. -/
theorem dat1_before0 (c : Dev nD) (t : Fin cfg1.N) (d) : (dat1 V c).before 0 t d = blk1 V c 0 t := by
  have hkeep : ∀ t, (cfg1.win 0).cut (cfg1.grid.coords t) ((dat1 V c).after 0 t) = (dat1 V c).blockOf 0 t := fun t => by
    rw [dat1_after0]; unfold Dat.blockOf blk1; rw [dat1_A]; try rfl
  refine ((dat1 V c).before_in_eq_fetched 0 rfl (fun _ => rfl) (fun _ _ _ => rfl) hkeep t d).trans ?_
  unfold Dat.fetched Dat.blockOf blk1; rw [dat1_A]; try rfl

/-! ## One run of the body -/

set_option maxHeartbeats 1000000 in
/-- One run of the pooling body on whole staging buffers. The input buffer reads `x` (a [32, 64, 300] tile), the output
    buffer reads anything. The body loads the tile whole, forms `k1_pay1 x` (the word-axis sum times 1/64), loads the
    output buffer without using what it read, and stores the [32, 300] result over all of it: the input buffer is
    unchanged and the output buffer reads exactly `k1_pay1 x`, whatever it held before. -/
theorem pool_run (c : Dev nD) (E : Set ℕ) (i : grid1.Coords)
    (src : Memref sig .tc .vmem S32x64x300 .f32) (hsrc : src.IsWhole) (dst : Memref sig .tc .vmem S32x300 .f32) (hdst : dst.IsWhole)
    (x : Vec F S32x64x300 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (k1_pay1 x)) -∗ K ⟨⟩))
      ⊢ wp frame (wpE (defs₀ (F := F)) Variants.none c none) E (cc1__mean_full_kernel i src hsrc dst hdst) K := by
  simp only [cc1__mean_full_kernel_eq_skeleton]; unfold cc1__mean_full_kernel_skel
  unfold owns
  iintro ⟨⟨%f, %hf, Hsrc⟩, ⟨%d, %g, -, Hdst⟩, Hk⟩
  subst hf
  sl_exec
  sl_step
  iapply Hk
  isplitl [Hsrc]
  · iexists f; isplitr; · ipureintro; rfl
    iexact Hsrc
  iexists _; isplitr
  swap; · iexact Hdst
  ipureintro
  -- one store through the whole [32, 300] rectangle: every index lies under it, so the buffer reads the stored value,
  -- and the value was computed from a load through the whole [32, 64, 300] rectangle, which reads the tile itself
  rw [View.read_writes_eq_canon _ _ _ (fun y => ⟨_, List.mem_singleton_self _, View.mem_set_unit_zero origin2 inb_S32x300_S32x300_0_0 y⟩),
    View.canon_unit_zero origin2]
  exact congrArg k1_pay1 (View.ld_unit_zero origin3 inb_S32x64x300_S32x64x300_0_0_0 (View.read (Elt F) src.view f))

/-! ## The body at a grid point -/

/-- The body's specification at every grid point. The two windows' staging buffers come one after the other; the input's
    holds the point's tile (`dat1_before0`), so `pool_run` applies at `x` that tile; the invariant (the scoped rest and
    the generator register) and the core's debts are not touched and are the same at `t` and `t + 1`. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)))
  simp only [dat1_before0]
  rw [show (dat1 V c).Φ t.succ = (dat1 V c).Φ t.castSucc from rfl,
    show (dat1 V c).owesAt () t.succ = (dat1 V c).owesAt () t.castSucc from rfl, dat1_after0, dat1_after1]
  iintro ⟨HΦ, Howe, ⟨%d0, Hin⟩, ⟨%d1, Hout⟩⟩
  iapply (pool_run c Set.univ _ _ _ _ _ (blk1 V c 0 t) _)
  isplitl [Hin]; · iexact Hin
  isplitl [Hout]; · iexists _; iexact Hout
  iintro ⟨Hin, Hout⟩
  isplitl [HΦ]; · iexact HΦ
  isplitl [Howe]; · iexact Howe
  isplitl [Hin]; · iexact Hin
  iexact Hout

end Cert.Kernel.Hand

end
-- ==== Proof.K.Launch.lean ====
/-
  The whole run of the program: first pooling kernel, second pooling kernel, then the host's concatenation.
  The contents of the core's unscoped buffers are followed from the launch memory through the three items —
  after a kernel, its windows' arrays at what its write-backs leave and every other buffer untouched; after the
  concatenation, its result written — and every weakly fair execution is shown to terminate with each unscoped
  buffer at the last of these valuations. From that one statement: the arguments end as launched, and the result
  is the concatenation of what the two kernels' write-backs leave in their output arrays.
-/
import proofs.«141562_j26147760898611_1_alg».proof.Proof.K.Mean0
import proofs.«141562_j26147760898611_1_alg».proof.Proof.K.Mean1
import proofs.«141562_j26147760898611_1_alg».proof.Proof.Gen.Kernel.Regions
import Idealize.ShloMosaic.Lib.Pipeline.RegionsLoop
import Idealize.ShloMosaic.Lib.StableHlo.Run
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same, read at the TensorCore's references: what the first kernel finds. -/
abbrev Vin0 : (c : Dev nD) → (b : Ref sig .tc) → Buf (Elt F) ((c : Thread nD τ).loc b) := fun c b => W0 m c b
/-- After the first kernel: its arrays at what its write-backs leave, every other buffer as before. -/
def W1 (c : Dev nD) : Valuation τ sig (Elt F) :=
  Pipeline.withArrays spec0 c (W0 m c) fun w => (dat0 (Vin0 m) c).arrAt w cfg0.N
theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second kernel finds. -/
abbrev Vin1 : (c : Dev nD) → (b : Ref sig .tc) → Buf (Elt F) ((c : Thread nD τ).loc b) := fun c b => W1 m c b
theorem W1_exit (c : Dev nD) (w : Fin cfg0.W) : (dat0 (Vin0 m) c).arrAt w cfg0.N = Vin1 m c (Pipeline.arrRef spec0 w) :=
  (W1_arr m c w).symm
theorem W1_rest (c : Dev nD) : ∀ b, b ∉ Finset.univ.image (Pipeline.arrRef spec0) → Vin1 m c b = Vin0 m c b :=
  fun b hb => W1_of_ne m c b fun w e => hb (Finset.mem_image.mpr ⟨w, Finset.mem_univ _, e⟩)

/-- After the second kernel. -/
def W2 (c : Dev nD) : Valuation τ sig (Elt F) :=
  Pipeline.withArrays spec1 c (W1 m c) fun w => (dat1 (Vin1 m) c).arrAt w cfg1.N
theorem W2_arr (c : Dev nD) (w : Fin cfg1.W) :
    W2 m c (Proc.devRef .tc (Pipeline.arrRef spec1 w)) = (dat1 (Vin1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vout1 : (c : Dev nD) → (b : Ref sig .tc) → Buf (Elt F) ((c : Thread nD τ).loc b) := fun c b => W2 m c b
theorem W2_exit (c : Dev nD) (w : Fin cfg1.W) : (dat1 (Vin1 m) c).arrAt w cfg1.N = Vout1 m c (Pipeline.arrRef spec1 w) :=
  (W2_arr m c w).symm
theorem W2_rest (c : Dev nD) : ∀ b, b ∉ Finset.univ.image (Pipeline.arrRef spec1) → Vout1 m c b = Vin1 m c b :=
  fun b hb => W2_of_ne m c b fun w e => hb (Finset.mem_image.mpr ⟨w, Finset.mem_univ _, e⟩)

/-- After the concatenation. -/
abbrev W3 : Dev nD → Valuation τ sig (Elt F) := fun c => StableHlo.after hostOps2 (W2 m c)

/-! ## Reading the last valuation -/

/-- The concatenation writes only its result. -/
theorem W3_keeps (c : Dev nD) (b : Ref sig .tc) (hb : b ∉ hostOps2_W) :
    W3 m c (Proc.devRef .tc b) = W2 m c (Proc.devRef .tc b) :=
  StableHlo.after_of_writes_sub hostOps2 _ hostOps2_writes hb

/-- The first argument is never written: it is the first kernel's input window's array, no array of the second
    kernel, and not the concatenation's result. -/
theorem W3_arg0 (c : Dev nD) : W3 m c (Proc.devRef .tc main_arg0) = m ((c : Thread nD τ).loc main_arg0) :=
  calc W3 m c (Proc.devRef .tc main_arg0)
    _ = W2 m c (Proc.devRef .tc main_arg0) := W3_keeps m c main_arg0 (by decide)
    _ = W1 m c (Proc.devRef .tc main_arg0) := W2_of_ne m c main_arg0 (by decide)
    _ = W0 m c (Proc.devRef .tc main_arg0) := (W1_arr m c 0).trans (((dat0 (Vin0 m) c).arrAt_in 0 rfl _).trans (dat0_A (Vin0 m) c 0))
    _ = m ((c : Thread nD τ).loc main_arg0) := rfl
/-- The second kernel finds its input as launched: the first kernel does not touch it. -/
theorem Vin1_arg1 (c : Dev nD) : Vin1 m c main_arg1 = m ((c : Thread nD τ).loc main_arg1) :=
  (W1_of_ne m c main_arg1 (by decide)).trans rfl
/-- The second argument is never written either. -/
theorem W3_arg1 (c : Dev nD) : W3 m c (Proc.devRef .tc main_arg1) = m ((c : Thread nD τ).loc main_arg1) :=
  calc W3 m c (Proc.devRef .tc main_arg1)
    _ = W2 m c (Proc.devRef .tc main_arg1) := W3_keeps m c main_arg1 (by decide)
    _ = W1 m c (Proc.devRef .tc main_arg1) := (W2_arr m c 0).trans (((dat1 (Vin1 m) c).arrAt_in 0 rfl _).trans (dat1_A (Vin1 m) c 0))
    _ = m ((c : Thread nD τ).loc main_arg1) := Vin1_arg1 m c
/-- The result: the two pooled arrays side by side along the feature axis. -/
theorem W3_v2 (c : Dev nD) :
    W3 m c (Proc.devRef .tc main_v2)
      = concatenate S256x600 1 [⟨S256x300, (dat0 (Vin0 m) c).arrAt 1 cfg0.N⟩, ⟨S256x300, (dat1 (Vin1 m) c).arrAt 1 cfg1.N⟩]
          concatenates_S256x300_S256x300_S256x600_d1 := by
  have e0 : W2 m c (Proc.devRef .tc main_v0) = (dat0 (Vin0 m) c).arrAt 1 cfg0.N :=
    (W2_of_ne m c main_v0 (by decide)).trans (W1_arr m c 1)
  have e1 : W2 m c (Proc.devRef .tc main_v1) = (dat1 (Vin1 m) c).arrAt 1 cfg1.N := W2_arr m c 1
  rw [← e0, ← e1]
  show StableHlo.after hostOps2 _ (Proc.devRef .tc main_v2) = _
  after_results

/-! ## The proof data of both kernels, and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as regions of the run -/

set_option backward.isDefEq.respectTransparency.types false in
/-- The first kernel: entered with every unscoped buffer as launched, left with them at `W1`. Its arrays are taken out of
    the unscoped buffers and put back at what the write-backs leave; the generator register and the scoped buffers go into
    the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Phi0_in (Vin0 m) c
    unfold Pipeline.ΦA at h
    rw [show (pdats m 0 c).Φ 0 = (dat0 (Vin0 m) c).Φ 0 from rfl]
    iintro ⟨Hp, -, Hr⟩
    iapply h
    isplitl [Hr]; · iexact Hr
    iexact Hp
  hout c := by
    have h := Phi0_out (Vin0 m) c
    unfold Pipeline.ΦA at h
    rw [Pipeline.ownSems0_none, show (pdats m 0 c).Φ (Fin.last _) = (dat0 (Vin0 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (W1_exit m c) (W1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered at `W1`, left at `W2`; its invariant is the scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (W2_exit m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The concatenation as an item of the run, over every unscoped buffer from `W2`. -/
abbrev hostItem : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev items : List (Pipeline.Seg (pcfgs (F := F)) adm (pdats m) () defs₀ 𝒱₀ L lv) :=
  [ .region (reg0 m), .region (reg1 m), .host (hostItem m) ]

theorem main_items (c : Dev nD) : main (F := F) c = Pipeline.Seg.run (items m) := (main_chain c).trans (by chain_rfl)

set_option backward.isDefEq.respectTransparency.types false in
/-- Every weakly fair execution from memory `m` with zero counters terminates, nothing faulting, and every final
    memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_arg0 m c), (h c _ (mem_uc main_arg1 (by decide))).trans (W3_arg1 m c)⟩)
    (run_all m ρ)

end Cert.Kernel.Hand

end
-- ==== Proof.KI.Mean0.lean ====
/-
  The first pooling kernel (the article tensor) on its 8 × 8 grid: the outer coordinate picks a tile of 32 batch
  rows, the inner one a chunk of 256 words. A [32, 300] scratch carries the running word-axis sum across the inner
  coordinate: zeroed where the inner coordinate is 0, the chunk's sum added at every point, and at inner coordinate 7
  the total, scaled by 1/2048, is stored into the result block.
  Here: the scratch's contents after each point, by recursion on the point; the region's invariant that carries
  them; what each window's staging buffer holds after the body; the body's specification at every point.
-/
import proofs.«141562_j26147760898611_1_alg».proof.Proof.Gen.KernelIdeal.Launch
import proofs.«141562_j26147760898611_1_alg».proof.Proof.Gen.KernelIdeal.Skeleton
import proofs.«141562_j26147760898611_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the first kernel at grid point `t`, read off the window's array as the kernel finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running word-axis sum the scratch holds after the point at position `n` (points run row-major, the inner
    coordinate is `n % 8`): the chunk's sum added to zero where the inner coordinate is 0, else to what the point
    before left. -/
def acc0 (c : Dev nD) : (n : ℕ) → n < cfg0.N → Vec F S32x300 .f32
  | 0, h => k0_pay2 (k0_pay1 (F := F)) (blk0 V c 0 ⟨0, h⟩)
  | n + 1, h =>
    if (n + 1) % 8 = 0 then k0_pay2 (k0_pay1 (F := F)) (blk0 V c 0 ⟨n + 1, h⟩)
    else k0_pay2 (acc0 c n (Nat.lt_of_succ_lt h)) (blk0 V c 0 ⟨n + 1, h⟩)

/-- The scratch as the kernel is handed it. -/
abbrev scr0 : Memref sig .tc .vmem S32x300 .f32 := Memref.whole cc0_scratch0

/-- The core's scoped buffers that the first kernel neither stages through nor uses as scratch (the second kernel's
    staging buffers), each whole at some contents. -/
def idleScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's invariant before the point at position `n`: before the first point every scoped buffer that is no
    staging buffer of this kernel at some contents and the generator register at some state; afterwards the scratch
    at the running sum the point before left, the other scoped buffers and the register as before. -/
def Phi0 (c : Dev nD) : (n : ℕ) → n ≤ cfg0.N → sProp 𝕄
  | 0, _ => Pipeline.ΦA spec0 c
  | n + 1, hn => iprop(owns (c : Thread nD τ) scr0 fullShare (acc0 V c n hn) ∗ idleScoped0 c ∗ (∃ r, prngReg c r))

/-- After the body at point `t`: the input's buffer still holds its block; the output's holds the scaled running sum
    (read only where the inner coordinate is 7, the one place the kernel stores it and the pipeline writes it back). -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay3 (acc0 V c t.val t.isLt)
  Φ t := Phi0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = k0_pay3 (acc0 V c t.val t.isLt) := by dsimp only [dat0]

/-- The running sum restarts where the inner coordinate is 0 … -/
theorem acc0_restart (c : Dev nD) (t : Fin cfg0.N) (h : t.val % 8 = 0) :
    acc0 V c t.val t.isLt = k0_pay2 (k0_pay1 (F := F)) (blk0 V c 0 t) := by
  -- by cases on the position: at position 0 this is the recursion's base, at a later one its first branch
  obtain ⟨n, hn⟩ := t
  cases n with
  | zero => rfl
  | succ n => exact if_pos h
/-- … and elsewhere adds the chunk's sum to what the point before left. -/
theorem acc0_step (c : Dev nD) (t : Fin cfg0.N) (h : t.val % 8 ≠ 0) :
    acc0 V c t.val t.isLt = k0_pay2 (acc0 V c (t.val - 1) (Nat.lt_of_le_of_lt (Nat.sub_le _ _) t.isLt)) (blk0 V c 0 t) := by
  -- position 0 has inner coordinate 0, so it is no case; at a later position this is the recursion's second branch
  obtain ⟨n, hn⟩ := t
  cases n with
  | zero => exact absurd (Nat.zero_mod _) h
  | succ n => exact if_neg h

/-! ## The two tests the body makes on the inner coordinate -/

/-- "The inner coordinate is 0", as the body computes it from the grid coordinates: the test guarding the scratch's reset. -/
private abbrev atStart0 (i : grid0.Coords) : Prop :=
  (Scalar.cmpi .ne (Scalar.extui (Scalar.cmpi .eq (BitVec.ofNat 32 (i 1).val) 0#32)) 0#32) = 1#1
/-- "The inner coordinate is 7", as the body computes it: the test guarding the store of the mean. -/
private abbrev atEnd0 (i : grid0.Coords) : Prop := k0_cond2 i = 1#1

/-- Points run row-major over the 8 × 8 grid, so the inner coordinate of the point at position t is t mod 8: the first
    test holds exactly at the positions ≡ 0 (mod 8), -/
private theorem atStart0_iff : ∀ t : Fin cfg0.N, atStart0 (grid0.coords t) ↔ t.val % 8 = 0 :=
  (by decide +kernel : ∀ t : Fin grid0.N, atStart0 (grid0.coords t) ↔ t.val % 8 = 0)
/-- and the second exactly at the positions ≡ 7 (mod 8). -/
private theorem atEnd0_iff : ∀ t : Fin cfg0.N, atEnd0 (grid0.coords t) ↔ t.val % 8 = 7 :=
  (by decide +kernel : ∀ t : Fin grid0.N, atEnd0 (grid0.coords t) ↔ t.val % 8 = 7)

/-! ## Where the windows are idle

The input is read at every point. The output is stored only under the second test: where it fails the body leaves the
output's buffer untouched and the block is not written back; where it holds the buffer is stored into. -/

private theorem in_live0 (i : grid0.Coords) : cfg0.idle 0 i = false := rfl
private theorem out_idle0 (i : grid0.Coords) (h : ¬atEnd0 i) : cfg0.idle 1 i = true := by
  show (!(k0_cond2 i == 1#1)) = true
  rw [Bool.not_eq_true', beq_eq_false_iff_ne]; exact h
private theorem out_live0 (i : grid0.Coords) (h : atEnd0 i) : cfg0.idle 1 i = false := by
  show (!(k0_cond2 i == 1#1)) = false
  rw [Bool.not_eq_false', beq_iff_eq]; exact h
private theorem out_kept0 (t : Fin cfg0.N) (h : ¬t.val % 8 = 7) : (cfg0.win 1).flush t = false :=
  Bool.eq_false_iff.mpr fun hf => h ((flush0_1 t).mp hf)

/-! ## Whole-buffer loads and stores

Every load and store of the body goes through the rectangle that is the whole buffer: offsets zero, the buffer's own
sizes. A load through it reads what the buffer holds; a store through it, made last, leaves exactly its payload; a load
after one such store reads that payload. -/

private theorem origin2 : (![0, 0] : Fin 2 → Nat) = fun _ => 0 := funext fun a => by fin_cases a <;> rfl
private theorem origin3 : (![0, 0, 0] : Fin 3 → Nat) = fun _ => 0 := funext fun a => by fin_cases a <;> rfl

private theorem load_sum0 (m : Memref sig .tc .vmem S32x300 .f32) (hm : m.IsWhole) (X : Vec F S32x300 .f32) :
    View.readAt (Elt F) m.view (Rect.unit ![0, 0] S32x300.size inb_S32x300_S32x300_0_0).toLoadRect (hm.unread X) = X := by
  rw [View.readAt_eq_ld, hm.read_unread, View.ld_unit_zero origin2]

private theorem load_chunk0 (m : Memref sig .tc .vmem S32x256x300 .f32) (hm : m.IsWhole) (X : Vec F S32x256x300 .f32) :
    View.readAt (Elt F) m.view (Rect.unit ![0, 0, 0] S32x256x300.size inb_S32x256x300_S32x256x300_0_0_0).toLoadRect (hm.unread X) = X := by
  rw [View.readAt_eq_ld, hm.read_unread, View.ld_unit_zero origin3]

private theorem store_sum0 (m : Memref sig .tc .vmem S32x300 .f32) (f : m.view.ty.Contents (Elt F)) (w : Vec F S32x300 .f32)
    (L : List (View.Piece (Elt F) S32x300 .f32)) :
    m.view.read (Elt F) (m.view.writes (Elt F) f (⟨Rect.unit ![0, 0] S32x300.size inb_S32x300_S32x300_0_0, w⟩ :: L)) = w := by
  rw [View.read_writes_eq_canon _ _ _ (fun y => ⟨_, List.mem_cons.mpr (Or.inl rfl), View.mem_set_unit_zero origin2 inb_S32x300_S32x300_0_0 y⟩)]
  exact View.canon_cons_unit_zero origin2 _ w L

private theorem reload_sum0 (m : Memref sig .tc .vmem S32x300 .f32) (w : Vec F S32x300 .f32) :
    m.view.readCov [(⟨Rect.unit ![0, 0] S32x300.size inb_S32x300_S32x300_0_0, w⟩ : View.Piece (Elt F) S32x300 .f32)]
      (Rect.unit ![0, 0] S32x300.size inb_S32x300_S32x300_0_0).toLoadRect = w :=
  View.readCov_unit_zero _ origin2 _ w

/-! ## The body on whole staging memrefs, case by case

Three cases meet the grid: inner coordinate 0 (reset, then add; no output), strictly between 0 and 7 (add only),
7 (add, then output). In each the input's buffer holds a chunk x; what the scratch and the output end with is named
by the body's arithmetic: the scratch at the chunk's sum added to what it held (zero after a reset), the output at
that total scaled. -/

/-- Inner coordinate 0 (and not 7): the scratch, whatever it held, is zeroed and then holds the chunk's sum added to
    zero; the input's and the output's buffers are left as they were. -/
private theorem body_reset0 (c : Dev nD) (i : grid0.Coords)
    (arg2 : Memref sig .tc .vmem S32x256x300 .f32) (harg2 : arg2.IsWhole)
    (arg3 : Memref sig .tc .vmem S32x300 .f32) (harg3 : arg3.IsWhole)
    (arg4 : Memref sig .tc .vmem S32x300 .f32) (harg4 : arg4.IsWhole)
    (hc0 : atStart0 i) (hc1 : ¬atEnd0 i)
    (x : Vec F S32x256x300 .f32) (y : Vec F S32x300 .f32) (E : Set ℕ) (K : PUnit → sProp 𝕄) :
    iprop(owns (c : Thread nD τ) arg2 fullShare x ∗ owns (c : Thread nD τ) arg3 fullShare y ∗ (∃ d, owns (c : Thread nD τ) arg4 fullShare d)
        ∗ (iprop(owns (c : Thread nD τ) arg2 fullShare x ∗ owns (c : Thread nD τ) arg3 fullShare y ∗ owns (c : Thread nD τ) arg4 fullShare (k0_pay2 (k0_pay1 (F := F)) x)) -∗ K ⟨⟩))
      ⊢ wp frame (wpE (defs₀ (F := F)) Variants.none c none) E (cc0__mean_reduce_kernel i arg2 harg2 arg3 harg3 arg4 harg4) K := by
  simp only [cc0__mean_reduce_kernel_eq_skeleton]; unfold cc0__mean_reduce_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  -- the last store's payload: the chunk's sum added to the zero block read back after the reset
  sl_unfold_run_names
  rw [store_sum0, reload_sum0, load_chunk0]

/-- Inner coordinate strictly between 0 and 7: the scratch, holding s, ends at the chunk's sum added to s; the input's
    and the output's buffers are left as they were. -/
private theorem body_add0 (c : Dev nD) (i : grid0.Coords)
    (arg2 : Memref sig .tc .vmem S32x256x300 .f32) (harg2 : arg2.IsWhole)
    (arg3 : Memref sig .tc .vmem S32x300 .f32) (harg3 : arg3.IsWhole)
    (arg4 : Memref sig .tc .vmem S32x300 .f32) (harg4 : arg4.IsWhole)
    (hc0 : ¬atStart0 i) (hc1 : ¬atEnd0 i)
    (x : Vec F S32x256x300 .f32) (y : Vec F S32x300 .f32) (s : Vec F S32x300 .f32) (E : Set ℕ) (K : PUnit → sProp 𝕄) :
    iprop(owns (c : Thread nD τ) arg2 fullShare x ∗ owns (c : Thread nD τ) arg3 fullShare y ∗ owns (c : Thread nD τ) arg4 fullShare s
        ∗ (iprop(owns (c : Thread nD τ) arg2 fullShare x ∗ owns (c : Thread nD τ) arg3 fullShare y ∗ owns (c : Thread nD τ) arg4 fullShare (k0_pay2 s x)) -∗ K ⟨⟩))
      ⊢ wp frame (wpE (defs₀ (F := F)) Variants.none c none) E (cc0__mean_reduce_kernel i arg2 harg2 arg3 harg3 arg4 harg4) K := by
  simp only [cc0__mean_reduce_kernel_eq_skeleton]; unfold cc0__mean_reduce_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [store_sum0, load_sum0, load_chunk0]

/-- Inner coordinate 7 (and not 0): the scratch, holding s, ends at the chunk's sum added to s, and the output's
    buffer, whatever it held, at that total scaled by 1/2048; the input's buffer is left as it was. -/
private theorem body_finish0 (c : Dev nD) (i : grid0.Coords)
    (arg2 : Memref sig .tc .vmem S32x256x300 .f32) (harg2 : arg2.IsWhole)
    (arg3 : Memref sig .tc .vmem S32x300 .f32) (harg3 : arg3.IsWhole)
    (arg4 : Memref sig .tc .vmem S32x300 .f32) (harg4 : arg4.IsWhole)
    (hc0 : ¬atStart0 i) (hc1 : atEnd0 i)
    (x : Vec F S32x256x300 .f32) (s : Vec F S32x300 .f32) (E : Set ℕ) (K : PUnit → sProp 𝕄) :
    iprop(owns (c : Thread nD τ) arg2 fullShare x ∗ (∃ d, owns (c : Thread nD τ) arg3 fullShare d) ∗ owns (c : Thread nD τ) arg4 fullShare s
        ∗ (iprop(owns (c : Thread nD τ) arg2 fullShare x ∗ owns (c : Thread nD τ) arg3 fullShare (k0_pay3 (k0_pay2 s x)) ∗ owns (c : Thread nD τ) arg4 fullShare (k0_pay2 s x)) -∗ K ⟨⟩))
      ⊢ wp frame (wpE (defs₀ (F := F)) Variants.none c none) E (cc0__mean_reduce_kernel i arg2 harg2 arg3 harg3 arg4 harg4) K := by
  simp only [cc0__mean_reduce_kernel_eq_skeleton]; unfold cc0__mean_reduce_kernel_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    -- the output's one store: the scaled read-back of the total just stored into the scratch
    sl_unfold_run_names
    rw [store_sum0, reload_sum0, load_sum0, load_chunk0]
  iexists _; isplitr
  swap; · iexact HS
  ipureintro
  sl_unfold_run_names
  rw [store_sum0, load_sum0, load_chunk0]

/-! ## The invariant, opened -/

/-- What the region is entered with, the scratch singled out: the scratch at some contents, the other scoped buffers
    and the generator register as the invariant keeps them. -/
private theorem PhiA_scratch0 (c : Dev nD) :
    (Pipeline.ΦA spec0 c : sProp 𝕄)
      = iprop((∃ d, owns (c : Thread nD τ) scr0 fullShare d) ∗ idleScoped0 (F := F) c ∗ (∃ r, prngReg c r)) := by
  unfold Pipeline.ΦA idleScoped0; rw [scopedRest0_eq]; simp only [scr0, owns_whole]
  -- the two sides differ only in how the separating conjunction is bracketed
  exact _root_.Idealize.SL.BI.sep_assoc.antisymm _root_.Idealize.SL.BI.sep_assoc'

/-- After the point at position n the scratch holds the running sum that point left. -/
private theorem Phi0_next (c : Dev nD) (n : ℕ) (hn : n < cfg0.N) :
    Phi0 V c (n + 1) hn
      = iprop(owns (c : Thread nD τ) scr0 fullShare (acc0 V c n hn) ∗ idleScoped0 c ∗ (∃ r, prngReg c r)) := rfl

/-- Before a point that is not the first it holds what the point before left. -/
private theorem Phi0_later (c : Dev nD) (n : ℕ) (h : n ≤ cfg0.N) (hz : n ≠ 0) :
    Phi0 V c n h
      = iprop(owns (c : Thread nD τ) scr0 fullShare (acc0 V c (n - 1) (by omega)) ∗ idleScoped0 c ∗ (∃ r, prngReg c r)) := by
  cases n with
  | zero => exact absurd rfl hz
  | succ n => rfl

/-- At any position the invariant yields the scratch at SOME contents: all a point that resets it needs, and all the
    region hands back. -/
private theorem Phi0_forget (c : Dev nD) (n : ℕ) (h : n ≤ cfg0.N) :
    Phi0 V c n h ⊢ iprop((∃ d, owns (c : Thread nD τ) scr0 fullShare d) ∗ idleScoped0 (F := F) c ∗ (∃ r, prngReg c r)) := by
  cases n with
  | zero =>
    rw [show Phi0 V c 0 h = Pipeline.ΦA spec0 c from rfl, PhiA_scratch0]
  | succ n =>
    rw [Phi0_next]
    iintro ⟨HS, Hi, Hg⟩
    isplitl [HS]; · iexists _; iexact HS
    isplitl [Hi]; · iexact Hi
    iexact Hg

/-- The invariant at a point's start, restated at the point's position. -/
private theorem Phi0_start (c : Dev nD) (t : Fin cfg0.N) :
    (dat0 V c).Φ t.castSucc = Phi0 V c t.val (Nat.le_of_lt t.isLt) := by
  dsimp only [dat0]; simp only [Fin.coe_castSucc]

/-! ## What the body finds in the input's buffer -/

/-- The input's current staging buffer holds its block at every point, fetched there or not: where the pipeline does
    not fetch, the block index has not moved and the body left the block in place. -/
private theorem found_in0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-! ## The body at a generic point -/

/-- Each window's current staging memref at point `t`, as the pipeline passes it to the body, and its wholeness. -/
private abbrev inM0 (t : Fin cfg0.N) : Memref sig .tc .vmem S32x256x300 .f32 := win0_0.stage (cfg0.slots t 0)
private abbrev inW0 (t : Fin cfg0.N) : (inM0 t).IsWhole := hstage0_0 ((cfg0.slots t 0).cast nbuf0_0)
private abbrev outM0 (t : Fin cfg0.N) : Memref sig .tc .vmem S32x300 .f32 := win0_1.stage (cfg0.slots t 1)
private abbrev outW0 (t : Fin cfg0.N) : (outM0 t).IsWhole := hstage0_1 ((cfg0.slots t 1).cast nbuf0_1)

set_option maxHeartbeats 1600000 in
/-- The body at any point. The input's buffer holds the point's block. By the inner coordinate t mod 8 the point is
    in one of the three cases. At 0 the invariant need only yield the scratch at some contents, and the scratch ends
    at the restarted sum; elsewhere the point is not the first, the invariant yields the scratch at what the point
    before left, and the scratch ends at the sum continued. Where the inner coordinate is not 7 the output's buffer is
    handed back as found; at 7 it ends at the scaled total. The core owes nothing throughout. -/
private theorem body_at0 (c : Dev nD) (t : Fin cfg0.N) :
    iprop((dat0 V c).Φ t.castSucc ∗ (dat0 V c).owesAt () t.castSucc
        ∗ (∃ d, owns (c : Thread nD τ) (inM0 t) fullShare ((dat0 V c).before 0 t d))
        ∗ (∃ d, owns (c : Thread nD τ) (outM0 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ (dat0 V c).leavesExact 0 t ∗ (dat0 V c).leavesExact 1 t)) := by
  unfold bodyAt0
  simp only [found_in0]
  rw [show (dat0 V c).owesAt () t.succ = (dat0 V c).owesAt () t.castSucc from rfl]
  rw [show (dat0 V c).Φ t.succ = Phi0 V c (t.val + 1) t.isLt from rfl, Phi0_next, Phi0_start]
  rw [show (dat0 V c).leavesExact 0 t = owns (c : Thread nD τ) (inM0 t) fullShare ((dat0 V c).after 0 t) from by
    unfold Dat.leavesExact; rw [in_live0], dat0_after0]
  have hN : t.val < 64 := lt_of_lt_of_eq t.isLt (show cfg0.N = 64 from N_0)
  by_cases h0 : t.val % 8 = 0
  · -- inner coordinate 0: reset
    have h7 : ¬t.val % 8 = 7 := by omega
    have hc1 : ¬atEnd0 (grid0.coords t) := fun h => h7 ((atEnd0_iff t).mp h)
    rw [Dat.leavesExact_idle (dat0 V c) 1 t (out_idle0 _ hc1) (out_kept0 t h7), acc0_restart V c t h0]
    iintro ⟨HΦ, Ho, ⟨%d0, H0⟩, ⟨%d1, H1⟩⟩
    ihave ⟨HS, Hi, Hg⟩ := (Phi0_forget V c _ _) $$ HΦ
    iapply (body_reset0 c (grid0.coords t) _ _ _ _ _ _ ((atStart0_iff t).mpr h0) hc1 (blk0 V c 0 t) _ Set.univ _)
    isplitl [H0]; · iexact H0
    isplitl [H1]; · iexact H1
    isplitl [HS]; · iexact HS
    iintro ⟨H0, H1, HS⟩
    isplitl [HS Hi Hg]
    · isplitl [HS]; · iexact HS
      isplitl [Hi]; · iexact Hi
      iexact Hg
    isplitl [Ho]; · iexact Ho
    isplitl [H0]; · iexact H0
    iexists _; iexact H1
  · have hz : t.val ≠ 0 := fun h => h0 (by rw [h])
    have hc0 : ¬atStart0 (grid0.coords t) := fun h => h0 ((atStart0_iff t).mp h)
    rw [Phi0_later V c _ _ hz, acc0_step V c t h0]
    by_cases h7 : t.val % 8 = 7
    · -- inner coordinate 7: add, then output
      have hc1 : atEnd0 (grid0.coords t) := (atEnd0_iff t).mpr h7
      rw [show (dat0 V c).leavesExact 1 t = owns (c : Thread nD τ) (outM0 t) fullShare ((dat0 V c).after 1 t) from by
        unfold Dat.leavesExact; rw [out_live0 _ hc1], dat0_after1, acc0_step V c t h0]
      iintro ⟨⟨HS, Hi, Hg⟩, Ho, ⟨%d0, H0⟩, ⟨%d1, H1⟩⟩
      iapply (body_finish0 c (grid0.coords t) _ _ _ _ _ _ hc0 hc1 (blk0 V c 0 t) _ Set.univ _)
      isplitl [H0]; · iexact H0
      isplitl [H1]; · iexists _; iexact H1
      isplitl [HS]; · iexact HS
      iintro ⟨H0, H1, HS⟩
      isplitl [HS Hi Hg]
      · isplitl [HS]; · iexact HS
        isplitl [Hi]; · iexact Hi
        iexact Hg
      isplitl [Ho]; · iexact Ho
      isplitl [H0]; · iexact H0
      iexact H1
    · -- inner coordinate strictly between: add only
      have hc1 : ¬atEnd0 (grid0.coords t) := fun h => h7 ((atEnd0_iff t).mp h)
      rw [Dat.leavesExact_idle (dat0 V c) 1 t (out_idle0 _ hc1) (out_kept0 t h7)]
      iintro ⟨⟨HS, Hi, Hg⟩, Ho, ⟨%d0, H0⟩, ⟨%d1, H1⟩⟩
      iapply (body_add0 c (grid0.coords t) _ _ _ _ _ _ hc0 hc1 (blk0 V c 0 t) _ _ Set.univ _)
      isplitl [H0]; · iexact H0
      isplitl [H1]; · iexact H1
      isplitl [HS]; · iexact HS
      iintro ⟨H0, H1, HS⟩
      isplitl [HS Hi Hg]
      · isplitl [HS]; · iexact HS
        isplitl [Hi]; · iexact Hi
        iexact Hg
      isplitl [Ho]; · iexact Ho
      isplitl [H0]; · iexact H0
      iexists _; iexact H1

/-- The body's specification at every grid point. -/
theorem body_obligation0 (c : Dev nD) : BodyObligation (dat0 (F := F) V c) (defs₀ (F := F)) Variants.none () Set.univ := by
  -- the windows one by one, then the body at the point
  intro t
  rw [bigSep_W0, bigSep_W0]
  exact body_at0 V c t

/-- What the region is entered with is the invariant before the first point. -/
theorem Phi0_in (c : Dev nD) : (Pipeline.ΦA spec0 c : sProp 𝕄) ⊢ (dat0 V c).Φ 0 := by
  rw [show (dat0 V c).Φ 0 = Phi0 V c 0 (Nat.zero_le _) from rfl]
  exact Idealize.SL.BI.Entails.refl _

/-- After the last point the invariant gives back what the region was entered with (the running sum's value forgotten). -/
theorem Phi0_out (c : Dev nD) : (dat0 V c).Φ (Fin.last cfg0.N) ⊢ (Pipeline.ΦA spec0 c : sProp 𝕄) := by
  -- the running sum's value is forgotten: the scratch at some contents is what the region was entered with
  rw [show (dat0 V c).Φ (Fin.last cfg0.N) = Phi0 V c cfg0.N (Nat.le_refl _) from rfl, PhiA_scratch0]
  exact Phi0_forget V c _ _

end Cert.KernelIdeal.Hand

end
-- ==== Proof.KI.Mean1.lean ====
/-
  The second pooling kernel (the options tensor), one grid point per tile of 32 batch rows: the body loads the
  whole [32, 64, 300] block, sums it over the word axis, scales by 1/64 and stores the [32, 300] result block whole.
  Here: what each window's staging buffer holds after the body at a point, as a function of the input block, and
  the body's specification at every point.
-/
import proofs.«141562_j26147760898611_1_alg».proof.Proof.Gen.KernelIdeal.Launch
import proofs.«141562_j26147760898611_1_alg».proof.Proof.Gen.KernelIdeal.Skeleton
import proofs.«141562_j26147760898611_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` of the second kernel at grid point `t`, read off the window's array as the kernel finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body at point `t`: the input's buffer still holds its block; the output's holds the scaled word-axis sum of it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => k1_pay1 (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = k1_pay1 (blk1 V c 0 t) := by dsimp only [dat1]

/-! ## The two whole-block rectangles start at the origin -/

private theorem origin2 : (![0, 0] : Fin 2 → Nat) = fun _ => 0 := by funext a; fin_cases a <;> rfl
private theorem origin3 : (![0, 0, 0] : Fin 3 → Nat) = fun _ => 0 := by funext a; fin_cases a <;> rfl

/-! ## The input's buffer holds the point's block whenever the body runs -/

/-- The input window is never cut and never idle, and the body leaves its block where it found it; so whether or
    not the tile was fetched at this very point, its staging buffer reads the point's block of the options tensor. -/
theorem dat1_before0 (c : Dev nD) (t : Fin cfg1.N) (d) : (dat1 V c).before 0 t d = blk1 V c 0 t := by
  have hkeep : ∀ t, (cfg1.win 0).cut (cfg1.grid.coords t) ((dat1 V c).after 0 t) = (dat1 V c).blockOf 0 t := fun t => by
    rw [dat1_after0]; unfold Dat.blockOf blk1; rw [dat1_A]; try rfl
  refine ((dat1 V c).before_in_eq_fetched 0 rfl (fun _ => rfl) (fun _ _ _ => rfl) hkeep t d).trans ?_
  unfold Dat.fetched Dat.blockOf blk1; rw [dat1_A]; try rfl

/-! ## One run of the body -/

set_option maxHeartbeats 1000000 in
/-- One run of the pooling body on whole staging buffers. The input buffer reads `x` (a [32, 64, 300] tile), the output
    buffer reads anything. The body loads the tile whole, forms `k1_pay1 x` (the word-axis sum times 1/64), loads the
    output buffer without using what it read, and stores the [32, 300] result over all of it: the input buffer is
    unchanged and the output buffer reads exactly `k1_pay1 x`, whatever it held before. -/
theorem pool_run (c : Dev nD) (E : Set ℕ) (i : grid1.Coords)
    (src : Memref sig .tc .vmem S32x64x300 .f32) (hsrc : src.IsWhole) (dst : Memref sig .tc .vmem S32x300 .f32) (hdst : dst.IsWhole)
    (x : Vec F S32x64x300 .f32) (K : PUnit → sProp 𝕄) :
    iprop(owns (c : Thread nD τ) src fullShare x ∗ (∃ d, owns (c : Thread nD τ) dst fullShare d)
        ∗ (iprop(owns (c : Thread nD τ) src fullShare x ∗ owns (c : Thread nD τ) dst fullShare (k1_pay1 x)) -∗ K ⟨⟩))
      ⊢ wp frame (wpE (defs₀ (F := F)) Variants.none c none) E (cc1__mean_full_kernel i src hsrc dst hdst) K := by
  simp only [cc1__mean_full_kernel_eq_skeleton]; unfold cc1__mean_full_kernel_skel
  unfold owns
  iintro ⟨⟨%f, %hf, Hsrc⟩, ⟨%d, %g, -, Hdst⟩, Hk⟩
  subst hf
  sl_exec
  sl_step
  iapply Hk
  isplitl [Hsrc]
  · iexists f; isplitr; · ipureintro; rfl
    iexact Hsrc
  iexists _; isplitr
  swap; · iexact Hdst
  ipureintro
  -- one store through the whole [32, 300] rectangle: every index lies under it, so the buffer reads the stored value,
  -- and the value was computed from a load through the whole [32, 64, 300] rectangle, which reads the tile itself
  rw [View.read_writes_eq_canon _ _ _ (fun y => ⟨_, List.mem_singleton_self _, View.mem_set_unit_zero origin2 inb_S32x300_S32x300_0_0 y⟩),
    View.canon_unit_zero origin2]
  exact congrArg k1_pay1 (View.ld_unit_zero origin3 inb_S32x64x300_S32x64x300_0_0_0 (View.read (Elt F) src.view f))

/-! ## The body at a grid point -/

/-- The body's specification at every grid point. The two windows' staging buffers come one after the other; the input's
    holds the point's tile (`dat1_before0`), so `pool_run` applies at `x` that tile; the invariant (the scoped rest and
    the generator register) and the core's debts are not touched and are the same at `t` and `t + 1`. -/
theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)))
  simp only [dat1_before0]
  rw [show (dat1 V c).Φ t.succ = (dat1 V c).Φ t.castSucc from rfl,
    show (dat1 V c).owesAt () t.succ = (dat1 V c).owesAt () t.castSucc from rfl, dat1_after0, dat1_after1]
  iintro ⟨HΦ, Howe, ⟨%d0, Hin⟩, ⟨%d1, Hout⟩⟩
  iapply (pool_run c Set.univ _ _ _ _ _ (blk1 V c 0 t) _)
  isplitl [Hin]; · iexact Hin
  isplitl [Hout]; · iexists _; iexact Hout
  iintro ⟨Hin, Hout⟩
  isplitl [HΦ]; · iexact HΦ
  isplitl [Howe]; · iexact Howe
  isplitl [Hin]; · iexact Hin
  iexact Hout

end Cert.KernelIdeal.Hand

end
-- ==== Proof.KI.Launch.lean ====
/-
  The whole run of the program: first pooling kernel, second pooling kernel, then the host's concatenation.
  The contents of the core's unscoped buffers are followed from the launch memory through the three items —
  after a kernel, its windows' arrays at what its write-backs leave and every other buffer untouched; after the
  concatenation, its result written — and every weakly fair execution is shown to terminate with each unscoped
  buffer at the last of these valuations. From that one statement: the arguments end as launched, and the result
  is the concatenation of what the two kernels' write-backs leave in their output arrays.
-/
import proofs.«141562_j26147760898611_1_alg».proof.Proof.KI.Mean0
import proofs.«141562_j26147760898611_1_alg».proof.Proof.KI.Mean1
import proofs.«141562_j26147760898611_1_alg».proof.Proof.Gen.KernelIdeal.Regions
import Idealize.ShloMosaic.Lib.Pipeline.RegionsLoop
import Idealize.ShloMosaic.Lib.StableHlo.Run
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same, read at the TensorCore's references: what the first kernel finds. -/
abbrev Vin0 : (c : Dev nD) → (b : Ref sig .tc) → Buf (Elt F) ((c : Thread nD τ).loc b) := fun c b => W0 m c b
/-- After the first kernel: its arrays at what its write-backs leave, every other buffer as before. -/
def W1 (c : Dev nD) : Valuation τ sig (Elt F) :=
  Pipeline.withArrays spec0 c (W0 m c) fun w => (dat0 (Vin0 m) c).arrAt w cfg0.N
theorem W1_arr (c : Dev nD) (w : Fin cfg0.W) :
    W1 m c (Proc.devRef .tc (Pipeline.arrRef spec0 w)) = (dat0 (Vin0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second kernel finds. -/
abbrev Vin1 : (c : Dev nD) → (b : Ref sig .tc) → Buf (Elt F) ((c : Thread nD τ).loc b) := fun c b => W1 m c b
theorem W1_exit (c : Dev nD) (w : Fin cfg0.W) : (dat0 (Vin0 m) c).arrAt w cfg0.N = Vin1 m c (Pipeline.arrRef spec0 w) :=
  (W1_arr m c w).symm
theorem W1_rest (c : Dev nD) : ∀ b, b ∉ Finset.univ.image (Pipeline.arrRef spec0) → Vin1 m c b = Vin0 m c b :=
  fun b hb => W1_of_ne m c b fun w e => hb (Finset.mem_image.mpr ⟨w, Finset.mem_univ _, e⟩)

/-- After the second kernel. -/
def W2 (c : Dev nD) : Valuation τ sig (Elt F) :=
  Pipeline.withArrays spec1 c (W1 m c) fun w => (dat1 (Vin1 m) c).arrAt w cfg1.N
theorem W2_arr (c : Dev nD) (w : Fin cfg1.W) :
    W2 m c (Proc.devRef .tc (Pipeline.arrRef spec1 w)) = (dat1 (Vin1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vout1 : (c : Dev nD) → (b : Ref sig .tc) → Buf (Elt F) ((c : Thread nD τ).loc b) := fun c b => W2 m c b
theorem W2_exit (c : Dev nD) (w : Fin cfg1.W) : (dat1 (Vin1 m) c).arrAt w cfg1.N = Vout1 m c (Pipeline.arrRef spec1 w) :=
  (W2_arr m c w).symm
theorem W2_rest (c : Dev nD) : ∀ b, b ∉ Finset.univ.image (Pipeline.arrRef spec1) → Vout1 m c b = Vin1 m c b :=
  fun b hb => W2_of_ne m c b fun w e => hb (Finset.mem_image.mpr ⟨w, Finset.mem_univ _, e⟩)

/-- After the concatenation. -/
abbrev W3 : Dev nD → Valuation τ sig (Elt F) := fun c => StableHlo.after hostOps2 (W2 m c)

/-! ## Reading the last valuation -/

/-- The concatenation writes only its result. -/
theorem W3_keeps (c : Dev nD) (b : Ref sig .tc) (hb : b ∉ hostOps2_W) :
    W3 m c (Proc.devRef .tc b) = W2 m c (Proc.devRef .tc b) :=
  StableHlo.after_of_writes_sub hostOps2 _ hostOps2_writes hb

/-- The first argument is never written: it is the first kernel's input window's array, no array of the second
    kernel, and not the concatenation's result. -/
theorem W3_arg0 (c : Dev nD) : W3 m c (Proc.devRef .tc main_arg0) = m ((c : Thread nD τ).loc main_arg0) :=
  calc W3 m c (Proc.devRef .tc main_arg0)
    _ = W2 m c (Proc.devRef .tc main_arg0) := W3_keeps m c main_arg0 (by decide)
    _ = W1 m c (Proc.devRef .tc main_arg0) := W2_of_ne m c main_arg0 (by decide)
    _ = W0 m c (Proc.devRef .tc main_arg0) := (W1_arr m c 0).trans (((dat0 (Vin0 m) c).arrAt_in 0 rfl _).trans (dat0_A (Vin0 m) c 0))
    _ = m ((c : Thread nD τ).loc main_arg0) := rfl
/-- The second kernel finds its input as launched: the first kernel does not touch it. -/
theorem Vin1_arg1 (c : Dev nD) : Vin1 m c main_arg1 = m ((c : Thread nD τ).loc main_arg1) :=
  (W1_of_ne m c main_arg1 (by decide)).trans rfl
/-- The second argument is never written either. -/
theorem W3_arg1 (c : Dev nD) : W3 m c (Proc.devRef .tc main_arg1) = m ((c : Thread nD τ).loc main_arg1) :=
  calc W3 m c (Proc.devRef .tc main_arg1)
    _ = W2 m c (Proc.devRef .tc main_arg1) := W3_keeps m c main_arg1 (by decide)
    _ = W1 m c (Proc.devRef .tc main_arg1) := (W2_arr m c 0).trans (((dat1 (Vin1 m) c).arrAt_in 0 rfl _).trans (dat1_A (Vin1 m) c 0))
    _ = m ((c : Thread nD τ).loc main_arg1) := Vin1_arg1 m c
/-- The result: the two pooled arrays side by side along the feature axis. -/
theorem W3_v2 (c : Dev nD) :
    W3 m c (Proc.devRef .tc main_v2)
      = concatenate S256x600 1 [⟨S256x300, (dat0 (Vin0 m) c).arrAt 1 cfg0.N⟩, ⟨S256x300, (dat1 (Vin1 m) c).arrAt 1 cfg1.N⟩]
          concatenates_S256x300_S256x300_S256x600_d1 := by
  have e0 : W2 m c (Proc.devRef .tc main_v0) = (dat0 (Vin0 m) c).arrAt 1 cfg0.N :=
    (W2_of_ne m c main_v0 (by decide)).trans (W1_arr m c 1)
  have e1 : W2 m c (Proc.devRef .tc main_v1) = (dat1 (Vin1 m) c).arrAt 1 cfg1.N := W2_arr m c 1
  rw [← e0, ← e1]
  show StableHlo.after hostOps2 _ (Proc.devRef .tc main_v2) = _
  after_results

/-! ## The proof data of both kernels, and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as regions of the run -/

set_option backward.isDefEq.respectTransparency.types false in
/-- The first kernel: entered with every unscoped buffer as launched, left with them at `W1`. Its arrays are taken out of
    the unscoped buffers and put back at what the write-backs leave; the generator register and the scoped buffers go into
    the invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Phi0_in (Vin0 m) c
    unfold Pipeline.ΦA at h
    rw [show (pdats m 0 c).Φ 0 = (dat0 (Vin0 m) c).Φ 0 from rfl]
    iintro ⟨Hp, -, Hr⟩
    iapply h
    isplitl [Hr]; · iexact Hr
    iexact Hp
  hout c := by
    have h := Phi0_out (Vin0 m) c
    unfold Pipeline.ΦA at h
    rw [Pipeline.ownSems0_none, show (pdats m 0 c).Φ (Fin.last _) = (dat0 (Vin0 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (W1_exit m c) (W1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel: entered at `W1`, left at `W2`; its invariant is the scoped rest and the generator register, untouched. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (W2_exit m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The concatenation as an item of the run, over every unscoped buffer from `W2`. -/
abbrev hostItem : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev items : List (Pipeline.Seg (pcfgs (F := F)) adm (pdats m) () defs₀ 𝒱₀ L lv) :=
  [ .region (reg0 m), .region (reg1 m), .host (hostItem m) ]

theorem main_items (c : Dev nD) : main (F := F) c = Pipeline.Seg.run (items m) := (main_chain c).trans (by chain_rfl)

set_option backward.isDefEq.respectTransparency.types false in
/-- Every weakly fair execution from memory `m` with zero counters terminates, nothing faulting, and every final
    memory holds each unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_arg0 m c), (h c _ (mem_uc main_arg1 (by decide))).trans (W3_arg1 m c)⟩)
    (run_all m ρ)

end Cert.KernelIdeal.Hand

end
-- ==== Proof.Spec.lean ====
/-
  The function both programs compute, over the extended reals: the mean of a rank-3 array over its middle ("word")
  axis — the sum of the W entries of a (batch, feature) column times 1/W — for the two inputs, W = 2048 and W = 64.
  Both extents are powers of two, so 1/W is the exact value of the kernel's f32 literal and of one over the
  reference's divisor.
-/
import Idealize.ShloMosaic.PureOps.Ideal
import Idealize.ShloMosaic.Lib.ValueIdx

noncomputable section

open scoped BigOperators

namespace Cert.MeanSpec

open Idealize.ShloMosaic Idealize.ShloMosaic.ValueIdx

/-- The article tensor's shape, the options tensor's, and a pooled result's. -/
abbrev SA : Shape := ⟨3, ![256, 2048, 300]⟩
abbrev SB : Shape := ⟨3, ![256, 64, 300]⟩
abbrev SO : Shape := ⟨2, ![256, 300]⟩

/-- Mean over the word axis of the article tensor: entry (b, d) is (∑ j < 2048, x (b, j, d)) · 1/2048. -/
def meanA (x : SA.Idx → EReal) : SO.Idx → EReal :=
  fun i => (∑ j : Fin 2048, x (ix3 (i 0 : Fin 256) j (i 1 : Fin 300))) * ((1 / 2048 : ℝ) : EReal)

/-- Mean over the word axis of the options tensor: entry (b, d) is (∑ j < 64, x (b, j, d)) · 1/64. -/
def meanB (x : SB.Idx → EReal) : SO.Idx → EReal :=
  fun i => (∑ j : Fin 64, x (ix3 (i 0 : Fin 256) j (i 1 : Fin 300))) * ((1 / 64 : ℝ) : EReal)

end Cert.MeanSpec

end
-- ==== Proof.Consts.lean ====
/-
  The four float literals of the two programs as real numbers: the kernels' scales 1/2048 and 1/64 and the
  reference's divisors 2048 and 64 — all powers of two, so each f32 word denotes its number exactly.

  An f32 word with sign bit 0, biased exponent e (1 ≤ e ≤ 254) and mantissa field 0 denotes 2^(e - 127): the
  significand is 1 and nothing is rounded. The four words below all have that form.
-/
import Idealize.ShloMosaic.PureOps.Ideal
import Idealize.ShloMosaic.PureOps.Ideal.Laws

noncomputable section

namespace Cert.MeanSpec

open Idealize.ShloMosaic

/-- `0x3A000000`: exponent field `0x74 = 116`, mantissa 0, so the value is `2^(116 - 127) = 2^(-11) = 1/2048`,
    the scale the first kernel multiplies its word-axis sum by. -/
theorem ofBits_inv2048 : Ideal.ofBits .f32 0x3A000000#32 = ((1 / 2048 : ℝ) : EReal) := by
  simp [Ideal.ofBits, Ideal.ieee, -EReal.coe_mul]; norm_num

/-- `0x3C800000`: exponent field `0x79 = 121`, mantissa 0, so the value is `2^(121 - 127) = 2^(-6) = 1/64`,
    the scale the second kernel multiplies its word-axis sum by. -/
theorem ofBits_inv64 : Ideal.ofBits .f32 0x3C800000#32 = ((1 / 64 : ℝ) : EReal) := by
  simp [Ideal.ofBits, Ideal.ieee, -EReal.coe_mul]; norm_num

/-- `0x45000000`: exponent field `0x8A = 138`, mantissa 0, so the value is `2^(138 - 127) = 2^11 = 2048`,
    the number of words the reference divides the first sum by. -/
theorem ofBits_2048 : Ideal.ofBits .f32 0x45000000#32 = ((2048 : ℝ) : EReal) := by
  simp [Ideal.ofBits, Ideal.ieee, -EReal.coe_mul]; norm_num

/-- `0x42800000`: exponent field `0x85 = 133`, mantissa 0, so the value is `2^(133 - 127) = 2^6 = 64`,
    the number of words the reference divides the second sum by. -/
theorem ofBits_64 : Ideal.ofBits .f32 0x42800000#32 = ((64 : ℝ) : EReal) := by
  simp [Ideal.ofBits, Ideal.ieee, -EReal.coe_mul]; norm_num

end Cert.MeanSpec

end
-- ==== Proof.Val.Payloads.lean ====
/-
  The kernels' arithmetic read at one entry, over the extended reals: the reset value is zero; one step of the
  running sum adds the chunk's 256 words of a (row, feature) column to the entry; the first kernel's result entry is
  the running sum times 1/2048; the second kernel's is the column's 64 words summed, times 1/64.
-/
import proofs.«141562_j26147760898611_1_alg».proof.Proof.Gen.KernelIdeal.Skeleton
import proofs.«141562_j26147760898611_1_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-- The value the scratch is reset to: zero at every entry. -/
theorem zeros_apply (i : S32x300.Idx) : k0_pay1 (F := Ideal) i = 0 := by
  -- the payload is the literal +0.0 at every entry, recast to the same shape; +0.0 denotes the real 0
  unfold k0_pay1
  rw [shapeCast_self, broadcast_apply]
  exact Ideal.ofBits_zero_f32

/-- One step of the running sum at the entry (r, d): the 256 words of the chunk's column added. -/
theorem chunk_add_apply (s : Vec Ideal S32x300 .f32) (x : Vec Ideal S32x256x300 .f32) (r : Fin 32) (d : Fin 300) :
    k0_pay2 (F := Ideal) s x (ix2 r d) = s (ix2 r d) + ∑ j : Fin 256, x (ix3 r j d) := by
  -- the payload is s + (x summed over its middle axis), recast to the same shape: read the sum of arrays at (r, d)
  unfold k0_pay2
  rw [shapeCast_self, addf_apply]
  congr 1
  -- the middle-axis sum at (r, d) runs over the source indices that drop to (r, d): coordinate j inserted on axis 1
  refine (Ideal.multiReduction_add_single x 0x00000000#32 reduces_S32x256x300_S32x300 (.inl rfl) rfl (ix2 r d)).trans ?_
  refine Finset.sum_congr rfl fun j _ => congrArg x ?_
  -- that source index is (r, j, d), axis by axis
  funext a
  match a with
  | ⟨0, _⟩ => rfl
  | ⟨1, _⟩ => rfl
  | ⟨2, _⟩ => rfl

/-- The first kernel's result entry: the running sum times 1/2048. -/
theorem scale2048_apply (s : Vec Ideal S32x300 .f32) (i : S32x300.Idx) :
    k0_pay3 (F := Ideal) s i = s i * ((1 / 2048 : ℝ) : EReal) := by
  -- the payload is s times the literal 2^(-11) at every entry, and that literal denotes the real 1/2048
  unfold k0_pay3
  rw [mulf_apply, broadcast_apply]
  exact congrArg (s i * ·) Cert.MeanSpec.ofBits_inv2048

/-- The second kernel's result entry (r, d): the column's 64 words summed, times 1/64. -/
theorem mean64_apply (x : Vec Ideal S32x64x300 .f32) (r : Fin 32) (d : Fin 300) :
    k1_pay1 (F := Ideal) x (ix2 r d) = (∑ j : Fin 64, x (ix3 r j d)) * ((1 / 64 : ℝ) : EReal) := by
  -- the payload is (x summed over its middle axis) times the literal 2^(-6) at every entry
  unfold k1_pay1
  rw [mulf_apply, broadcast_apply]
  -- the two factors separately: the literal denotes the real 1/64, and the middle-axis sum at (r, d) is the
  -- sum over j of the entries (r, j, d)
  refine congrArg₂ (· * ·) ?_ Cert.MeanSpec.ofBits_inv64
  refine (Ideal.multiReduction_add_single x 0x00000000#32 reduces_S32x64x300_S32x300 (.inl rfl) rfl (ix2 r d)).trans ?_
  refine Finset.sum_congr rfl fun j _ => congrArg x ?_
  funext a
  match a with
  | ⟨0, _⟩ => rfl
  | ⟨1, _⟩ => rfl
  | ⟨2, _⟩ => rfl

end Cert.KernelIdeal.Hand

end
-- ==== Proof.Val.Regroup.lean ====
/-
  Regrouping a sum over consecutive chunks: the sum over a chunks of the sums over the b entries of each chunk is
  the sum over all a·b entries, in any commutative additive monoid (the extended reals among them: no finiteness is
  needed, only associativity and commutativity of +).
-/
import Mathlib.Algebra.BigOperators.Fin
import Mathlib.Data.EReal.Basic

noncomputable section

open scoped BigOperators

namespace Cert.MeanSpec

/-- The same regrouping with every sum taken over an initial segment of the naturals. By induction on the number
    of chunks: no chunk gives the empty sum on both sides; and the first `(a + 1) * b = a * b + b` entries are the
    first `a * b` entries followed by the `b` entries `a * b + j`, `j < b`, which are the entries of chunk `a`. -/
private theorem sum_chunks_range {M : Type} [AddCommMonoid M] (f : ℕ → M) (a b : ℕ) :
    ∑ k ∈ Finset.range a, ∑ j ∈ Finset.range b, f (b * k + j) = ∑ i ∈ Finset.range (a * b), f i := by
  induction a with
  | zero => simp
  | succ a ih =>
    rw [Finset.sum_range_succ, ih, Nat.add_one_mul, Finset.sum_range_add, Nat.mul_comm b a]

/-- The sum over the first `a` chunks of `b` consecutive entries each is the sum over the first `a * b` entries. -/
theorem sum_chunks {M : Type} [AddCommMonoid M] (f : ℕ → M) (a b : ℕ) :
    ∑ k ∈ Finset.range a, ∑ j : Fin b, f (b * k + j.val) = ∑ i : Fin (a * b), f i.val := by
  -- a sum over `Fin n` of a function of the underlying natural is the sum over the naturals below `n`
  rw [Fin.sum_univ_eq_sum_range (fun i => f i) (a * b), ← sum_chunks_range f a b]
  refine Finset.sum_congr rfl fun k _ => ?_
  exact Fin.sum_univ_eq_sum_range (fun j => f (b * k + j)) b

/-- Eight chunks of 256 words are the 2048 words. -/
theorem sum_chunks_2048 {M : Type} [AddCommMonoid M] (f : ℕ → M) :
    ∑ k : Fin 8, ∑ j : Fin 256, f (256 * k.val + j.val) = ∑ i : Fin 2048, f i.val := by
  -- the outer sum over `Fin 8` is the sum over the naturals below 8, and `8 * 256` is `2048`
  rw [Fin.sum_univ_eq_sum_range (fun k => ∑ j : Fin 256, f (256 * k + j.val)) 8]
  exact sum_chunks f 8 256

end Cert.MeanSpec

end
-- ==== Proof.Val.Kernel0.lean ====
/-
  What the first pooling kernel's write-backs leave in its result array, over the extended reals. The scratch's
  running sum after the point (b, k) is the sum of the input's column over the words 0 … 256(k+1)−1 of batch tile b
  (by induction on k: it restarts from zero at k = 0 and adds one chunk of 256 words per point); at k = 7 that is
  the sum over all 2048 words, and the block written back is that sum times 1/2048. The eight written blocks (one per
  batch tile) tile the [256, 300] array, so the array ends at the mean over the word axis.
-/
import proofs.«141562_j26147760898611_1_alg».proof.Proof.KI.Mean0
import proofs.«141562_j26147760898611_1_alg».proof.Proof.Spec
import proofs.«141562_j26147760898611_1_alg».proof.Proof.Val.Payloads
import proofs.«141562_j26147760898611_1_alg».proof.Proof.Val.Regroup
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## Where a point's blocks sit -/

/-- Where the two windows sit at point `t = 8b + k` of the 8 × 8 row-major grid: the input's block index is
    (b, k, 0) and the result's is (b, 0). Decided over the 64 points. -/
theorem tile_facts : ∀ t : Fin cfg0.N, win0_0.index t (0 : Fin 3) = t.val / 8 ∧ win0_0.index t (1 : Fin 3) = t.val % 8
    ∧ win0_0.index t (2 : Fin 3) = 0 ∧ win0_1.index t (0 : Fin 2) = t.val / 8 ∧ win0_1.index t (1 : Fin 2) = 0 :=
  (by decide +kernel : ∀ t : Fin grid0.N, _)

/-- The chunk of the input the kernel reads at point `t`: 32 rows by 256 words by 300 features. -/
abbrev chunk (c : Dev nD) (t : Fin cfg0.N) : Vec Ideal S32x256x300 .f32 := blk0 V c 0 t

/-- The input array, entry by entry an extended real. -/
abbrev words (c : Dev nD) : S256x2048x300.Idx → EReal := V c main_arg0

/-- The chunk read at point `t = 8b + k`, entry (r, j, d), is the input at row 32b + r, word 256k + j, feature d:
    a block's entry sits in the array at block index × block extent + its own coordinate, axis by axis. -/
theorem chunk_apply (c : Dev nD) (t : Fin cfg0.N) (r : Fin 32) (j : Fin 256) (d : Fin 300) (R : Fin 256) (J : Fin 2048)
    (hR : R.val = 32 * (t.val / 8) + r.val) (hJ : J.val = 256 * (t.val % 8) + j.val) :
    chunk V c t (ix3 r j d) = words V c (ix3 R J d) := by
  obtain ⟨e0, e1, e2, -, -⟩ := tile_facts t
  unfold chunk blk0
  rw [View.read_apply]
  show words V c _ = words V c _
  refine congrArg (words V c) ?_
  funext a; apply Fin.ext
  match a with
  | ⟨0, _⟩ => show win0_0.index t (0 : Fin 3) * 32 + 1 * r.val = R.val; omega
  | ⟨1, _⟩ => show win0_0.index t (1 : Fin 3) * 256 + 1 * j.val = J.val; omega
  | ⟨2, _⟩ => show win0_0.index t (2 : Fin 3) * 300 + 1 * d.val = d.val; omega

/-! ## The running sum, by induction along the word chunks -/

/-- The (row, feature) column of the input as a function of the word's position, zero past the last word: the form
    in which sums over chunks of words are regrouped. -/
def column (x : S256x2048x300.Idx → EReal) (R : Fin 256) (d : Fin 300) (i : ℕ) : EReal :=
  if h : i < 2048 then x (ix3 R ⟨i, h⟩ d) else 0

/-- The running sum after the point at position `n = 8b + k`, entry (r, d): the words 0 … 256(k+1) − 1 of the input's
    column (32b + r, d), summed chunk by chunk. By induction on the position: at k = 0 the scratch restarts from zero
    and the first chunk is added (0 + x = x); elsewhere the point before (same b, k − 1) left the first k chunks and
    this point adds chunk k. -/
theorem acc0_apply (c : Dev nD) (n : ℕ) : ∀ (h : n < cfg0.N) (r : Fin 32) (d : Fin 300) (R : Fin 256),
    R.val = 32 * (n / 8) + r.val →
    (acc0 V c n h : Vec Ideal S32x300 .f32) (ix2 r d)
      = ∑ q ∈ Finset.range (n % 8 + 1), ∑ j : Fin 256, column (words V c) R d (256 * q + j.val) := by
  induction n using Nat.strong_induction_on with
  | _ n ih =>
    intro h r d R hR
    -- chunk k = n % 8 of the column is what the point reads
    have hchunk : ∑ j : Fin 256, chunk V c ⟨n, h⟩ (ix3 r j d)
        = ∑ j : Fin 256, column (words V c) R d (256 * (n % 8) + j.val) := by
      refine Finset.sum_congr rfl fun j _ => ?_
      have hlt : 256 * (n % 8) + j.val < 2048 := by have := j.isLt; omega
      unfold column
      rw [dif_pos hlt]
      exact chunk_apply V c ⟨n, h⟩ r j d R ⟨256 * (n % 8) + j.val, hlt⟩ hR rfl
    by_cases hm : n % 8 = 0
    · -- k = 0: zero plus the first chunk
      refine (congrFun (acc0_restart V c ⟨n, h⟩ hm) (ix2 r d)).trans ?_
      refine (chunk_add_apply (k0_pay1 (F := Ideal)) (chunk V c ⟨n, h⟩) r d).trans ?_
      rw [zeros_apply, zero_add, hchunk, hm, Finset.sum_range_one]
    · -- k > 0: the point before is in the same batch tile, one chunk earlier
      have hn : n - 1 < n := by omega
      have hk : n % 8 = (n - 1) % 8 + 1 := by omega
      refine (congrFun (acc0_step V c ⟨n, h⟩ hm) (ix2 r d)).trans ?_
      refine (chunk_add_apply (acc0 V c (n - 1) (Nat.lt_of_le_of_lt (Nat.sub_le _ _) h)) (chunk V c ⟨n, h⟩) r d).trans ?_
      rw [ih (n - 1) hn _ r d R (by omega), hchunk, Finset.sum_range_succ _ (n % 8), hk]

/-- The eight chunks of a column are its 2048 words. -/
theorem column_sum (x : S256x2048x300.Idx → EReal) (R : Fin 256) (d : Fin 300) :
    ∑ q ∈ Finset.range 8, ∑ j : Fin 256, column x R d (256 * q + j.val) = ∑ j : Fin 2048, x (ix3 R j d) := by
  refine (Cert.MeanSpec.sum_chunks (column x R d) 8 256).trans ?_
  show ∑ i : Fin 2048, column x R d i.val = _
  refine Finset.sum_congr rfl fun i _ => ?_
  unfold column
  rw [dif_pos i.isLt]

/-! ## What is written back, and the array it leaves -/

/-- What the point (b, 7) stores into the result's block, at entry `i`: the mean of the input's column whose row is
    32b + the entry's row and whose feature is the entry's — the sum of all eight chunks times 1/2048. -/
theorem stored_apply (c : Dev nD) (t : Fin cfg0.N) (h7 : t.val % 8 = 7) (i : S32x300.Idx) (I : S256x300.Idx)
    (h0 : (I 0).val = 32 * (t.val / 8) + (i 0).val) (h1 : (I 1).val = (i 1).val) :
    k0_pay3 (F := Ideal) (acc0 V c t.val t.isLt) i = Cert.MeanSpec.meanA (words V c) I := by
  obtain ⟨r, d, rfl⟩ : ∃ (r : Fin 32) (d : Fin 300), i = ix2 r d := ⟨i 0, i 1, eq_ix2 i⟩
  obtain ⟨R, D, rfl⟩ : ∃ (R : Fin 256) (D : Fin 300), I = ix2 R D := ⟨I 0, I 1, eq_ix2 I⟩
  obtain rfl : D = d := Fin.ext h1
  rw [scale2048_apply, acc0_apply V c t.val t.isLt r D R h0, h7, column_sum]
  rfl

/-- What a writing point writes back is its block of the word-axis mean of the input: the writing points are the
    ones with k = 7, and the result's block at (b, 7) holds rows 32b … 32b + 31, all 300 features. -/
theorem flushed_mean (c : Dev nD) (t : Fin cfg0.N) (hf : (cfg0.win 1).flush t = true) :
    (dat0 (F := Ideal) V c).flushed 1 t
      = ((cfg0.win 1).blk t).view.read (Elt Ideal) (Cert.MeanSpec.meanA (words V c)) := by
  have h7 : t.val % 8 = 7 := (flush0_1 t).mp hf
  obtain ⟨-, -, -, e3, e4⟩ := tile_facts t
  show (cfg0.win 1).cut (grid0.coords t) ((dat0 (F := Ideal) V c).after 1 t) = _
  rw [dat0_after1]
  funext y
  show k0_pay3 (F := Ideal) (acc0 V c t.val t.isLt) ((cfg0.win 1).xinj (grid0.coords t) y)
    = Cert.MeanSpec.meanA (words V c) (((cfg0.win 1).blk t).view.emb y)
  refine stored_apply V c t h7 _ _ ?_ ?_
  · show win0_1.index t (0 : Fin 2) * 32 + 1 * (y 0).val = 32 * (t.val / 8) + (y 0).val
    omega
  · show win0_1.index t (1 : Fin 2) * 300 + 1 * (y 1).val = (y 1).val
    omega

/-- An index of the result array lies in point `t`'s block iff each coordinate lies in the block's range. -/
theorem mem_tile (t : Fin cfg0.N) (i : S256x300.Idx) :
    i ∈ ((cfg0.win 1).blk t).view.set
      ↔ ∀ a : Fin 2, win0_1.index t a * S32x300.size a ≤ (i a).val ∧ (i a).val < win0_1.index t a * S32x300.size a + S32x300.size a := by
  show i ∈ ((View.whole main_v0).slice (win0_1.rect t)).set ↔ _
  rw [View.set_slice_whole, Rect.mem_set_unit]
  exact Iff.rfl

/-- The result array after the first kernel is the word-axis mean of the array it read: row R lies in batch tile
    R / 32, whose last point 8·(R / 32) + 7 writes the tile's 32 rows back, all 300 features of each. -/
theorem pooledA (c : Dev nD) :
    ((dat0 (F := Ideal) V c).arrAt 1 cfg0.N : S256x300.Idx → EReal) = Cert.MeanSpec.meanA (V c main_arg0) := by
  refine (dat0 (F := Ideal) V c).arrAt_eq_of_cover 1 (Cert.MeanSpec.meanA (words V c)) (flushed_mean V c) fun i => ?_
  have hi0 : (i 0).val < 256 := (i 0).isLt
  have hi1 : (i 1).val < 300 := (i 1).isLt
  have hN : cfg0.N = 64 := N_0
  let t : Fin cfg0.N := ⟨8 * ((i 0).val / 32) + 7, by omega⟩
  have ht : t.val = 8 * ((i 0).val / 32) + 7 := rfl
  obtain ⟨-, -, -, e3, e4⟩ := tile_facts t
  refine ⟨t, (flush0_1 t).mpr (by omega), ?_⟩
  rw [mem_tile]
  intro a
  match a with
  | ⟨0, _⟩ =>
    show win0_1.index t (0 : Fin 2) * 32 ≤ (i 0).val ∧ (i 0).val < win0_1.index t (0 : Fin 2) * 32 + 32
    omega
  | ⟨1, _⟩ =>
    show win0_1.index t (1 : Fin 2) * 300 ≤ (i 1).val ∧ (i 1).val < win0_1.index t (1 : Fin 2) * 300 + 300
    omega

end Cert.KernelIdeal.Hand

end
-- ==== Proof.Val.Kernel1.lean ====
/-
  What the second pooling kernel's write-backs leave in its result array, over the extended reals: grid point t
  writes rows 32t … 32t+31, each entry the sum over the 64 words of the input's column times 1/64; the eight
  blocks tile the [256, 300] array, so the array ends at the mean over the word axis.
-/
import proofs.«141562_j26147760898611_1_alg».proof.Proof.KI.Mean1
import proofs.«141562_j26147760898611_1_alg».proof.Proof.Spec
import proofs.«141562_j26147760898611_1_alg».proof.Proof.Val.Payloads
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Where the two windows' tiles sit -/

/-- At grid point `t` both windows are on their `t`-th tile along the batch axis and on the only tile along the other
    axes (decided over the eight points). -/
theorem optTile_index : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, _)

/-- Entry (r, j, d) of the input tile at point `t` is entry (32 t + r, j, d) of the options tensor. -/
theorem optTile_entry (c : Dev nD) (t : Fin cfg1.N) (r : Fin 32) (j : Fin 64) (d : Fin 300) (k : S256x64x300.Idx)
    (hk0 : (k 0).val = 32 * t.val + r.val) (hk1 : (k 1).val = j.val) (hk2 : (k 2).val = d.val) :
    (blk1 V c 0 t : Vec Ideal S32x64x300 .f32) (ix3 r j d) = (V c main_arg1 : S256x64x300.Idx → EReal) k := by
  obtain ⟨e0, e1, e2, -, -⟩ := optTile_index t
  unfold blk1
  rw [View.read_apply]
  show V c main_arg1 _ = V c main_arg1 k
  congr 1
  funext a
  apply Fin.ext
  match a with
  | ⟨0, _⟩ => show win1_0.index t (0 : Fin 3) * 32 + 1 * r.val = (k 0).val; rw [e0, hk0]; omega
  | ⟨1, _⟩ => show win1_0.index t (1 : Fin 3) * 64 + 1 * j.val = (k 1).val; rw [e1, hk1]; omega
  | ⟨2, _⟩ => show win1_0.index t (2 : Fin 3) * 300 + 1 * d.val = (k 2).val; rw [e2, hk2]; omega

/-- Row `r` of the output tile at point `t` is row `32 t + r` of the result array, the feature coordinate unchanged. -/
theorem optTile_row (t : Fin cfg1.N) (r : Fin 32) (d : Fin 300) :
    ((((cfg1.win 1).blk t).view.emb (ix2 r d) : S256x300.Idx) 0).val = 32 * t.val + r.val
    ∧ ((((cfg1.win 1).blk t).view.emb (ix2 r d) : S256x300.Idx) 1).val = d.val := by
  obtain ⟨-, -, -, e3, e4⟩ := optTile_index t
  constructor
  · show win1_1.index t (0 : Fin 2) * 32 + 1 * r.val = _; rw [e3]; omega
  · show win1_1.index t (1 : Fin 2) * 300 + 1 * d.val = _; rw [e4]; omega

/-! ## What a point writes back -/

/-- The body's result at (r, d) is the mean's entry at `i` as soon as the tile's column (r, ·, d) is the array's column
    (i 0, ·, i 1): both are that column's 64 words summed, times 1/64. -/
theorem mean64_of_tile (x : Vec Ideal S32x64x300 .f32) (A : S256x64x300.Idx → EReal) (r : Fin 32) (d : Fin 300)
    (i : S256x300.Idx) (hx : ∀ j : Fin 64, x (ix3 r j d) = A (ix3 (i 0) j (i 1))) :
    k1_pay1 (F := Ideal) x (ix2 r d) = Cert.MeanSpec.meanB A i := by
  rw [mean64_apply]
  unfold Cert.MeanSpec.meanB
  congr 1
  exact Finset.sum_congr rfl fun j _ => hx j

/-- Point `t` writes back the tile of the word-axis mean that its rows name: entry (r, d) of the body's result is the
    sum over the 64 words of the input tile's column (r, ·, d) times 1/64, and that column is column (32 t + r, ·, d) of the
    options tensor — the very sum the mean has at row 32 t + r. -/
theorem optTile_written (c : Dev nD) (t : Fin cfg1.N) :
    (dat1 (F := Ideal) V c).flushed 1 t
      = ((cfg1.win 1).blk t).view.read (Elt Ideal) (Cert.MeanSpec.meanB (V c main_arg1)) := by
  show (cfg1.win 1).cut (grid1.coords t) ((dat1 (F := Ideal) V c).after 1 t) = _
  rw [dat1_after1]
  funext y
  obtain ⟨r, d, rfl⟩ : ∃ (r : Fin 32) (d : Fin 300), y = ix2 r d := ⟨y 0, y 1, eq_ix2 y⟩
  rw [View.read_apply]
  obtain ⟨h0, h1⟩ := optTile_row t r d
  exact mean64_of_tile (blk1 V c 0 t) (V c main_arg1) r d (((cfg1.win 1).blk t).view.emb (ix2 r d))
    (fun j => optTile_entry V c t r j d _ h0 rfl h1)

/-! ## The eight tiles cover the array -/

/-- Row `b` of the result array lies in the tile of point `b / 32`. -/
theorem optRows_covered (i : S256x300.Idx) :
    ∃ t : Fin cfg1.N, (cfg1.win 1).flush t = true ∧ i ∈ ((cfg1.win 1).blk t).view.set := by
  have hb : (i 0).val < 256 := (i 0).isLt
  have hd : (i 1).val < 300 := (i 1).isLt
  let t : Fin cfg1.N := ⟨(i 0).val / 32, by rw [show cfg1.N = 8 from N_1]; omega⟩
  obtain ⟨-, -, -, e3, e4⟩ := optTile_index t
  have e3' : win1_1.index t (0 : Fin 2) = (i 0).val / 32 := e3
  refine ⟨t, flush1_1 t, ?_⟩
  show i ∈ ((View.whole main_v1).slice (win1_1.rect t)).set
  rw [View.set_slice_whole, Rect.mem_set_unit]
  intro a
  match a with
  | ⟨0, _⟩ =>
    show win1_1.index t (0 : Fin 2) * 32 ≤ (i 0).val ∧ (i 0).val < win1_1.index t (0 : Fin 2) * 32 + 32
    rw [e3']; omega
  | ⟨1, _⟩ =>
    show win1_1.index t (1 : Fin 2) * 300 ≤ (i 1).val ∧ (i 1).val < win1_1.index t (1 : Fin 2) * 300 + 300
    rw [e4]; omega

/-- The result array after the second kernel is the word-axis mean of the array it read. -/
theorem pooledB (c : Dev nD) :
    ((dat1 (F := Ideal) V c).arrAt 1 cfg1.N : S256x300.Idx → EReal) = Cert.MeanSpec.meanB (V c main_arg1) :=
  (dat1 (F := Ideal) V c).arrAt_eq_of_cover 1 (Cert.MeanSpec.meanB (V c main_arg1)) (fun t _ => optTile_written V c t) optRows_covered

end Cert.KernelIdeal.Hand

end
-- ==== Proof.Val.Ref.lean ====
/-
  The reference's result over the extended reals: each input summed over its word axis from zero, divided by the
  number of words (2048 and 64, both powers of two, so the quotient is the product with the exact reciprocal), the
  two pooled arrays placed side by side along the feature axis.

  Entry (b, d) of a pooled array is, operation by operation,
      (0 + ∑ j, x (b, j, d)) / W,
  the divisor W being the scalar literal broadcast to every entry. Three facts turn this into the mean of the
  specification, (∑ j, x (b, j, d)) · (1/W):
    * the initial value of the sum is the literal +0.0, the real 0, and 0 + s = s on the extended reals;
    * the operand index the sum reads at step j, given coordinate by coordinate, is the triple (b, j, d);
    * W is a nonzero REAL, and dividing an extended real s by a nonzero real W is multiplying s by the real 1/W —
      also when s is +∞ or −∞ (for W > 0 both sides are that same infinity), so no finiteness of the inputs is used.
-/
import proofs.«141562_j26147760898611_1_alg».proof.Proof.Gen.ReferenceIdeal.Run
import proofs.«141562_j26147760898611_1_alg».proof.Proof.Gen.ReferenceIdeal.Read
import proofs.«141562_j26147760898611_1_alg».proof.Proof.Spec
import proofs.«141562_j26147760898611_1_alg».proof.Proof.Consts
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The article entry the first sum reads at word j for the result entry (b, d) is (b, j, d): the two index
    functions agree on each of the three axes. -/
private theorem wordIdxA (i : S256x300.Idx) (k : Fin 2048) :
    idx_main_v0 i k = ix3 (i 0 : Fin 256) k (i 1 : Fin 300) := by
  funext a
  match a with
  | ⟨0, _⟩ => rfl
  | ⟨1, _⟩ => rfl
  | ⟨2, _⟩ => rfl

/-- The options entry the second sum reads at word j for the result entry (b, d) is (b, j, d). -/
private theorem wordIdxB (i : S256x300.Idx) (k : Fin 64) :
    idx_main_v3 i k = ix3 (i 0 : Fin 256) k (i 1 : Fin 300) := by
  funext a
  match a with
  | ⟨0, _⟩ => rfl
  | ⟨1, _⟩ => rfl
  | ⟨2, _⟩ => rfl

/-- The reference's first pooled array is the word-axis mean of the article tensor. -/
theorem pooledA_ref (x0 : (⟨S256x2048x300, .f32⟩ : BufTy).Contents (Elt Ideal)) :
    (val_main_v2 (F := Ideal) x0 : S256x300.Idx → EReal) = Cert.MeanSpec.meanA x0 := by
  funext i
  -- entry i is (0.0 + ∑ j, x0 (b, j, d)) / 2048.0, the two literals read at the scalar's one index
  rw [val_main_v2_apply, val_main_v0_apply, val_main_v1_apply, val_main_cst_0_apply, val_main_cst_apply]
  -- the literals are the reals 0 and 2048; 0 + s = s; s / 2048 = s · (1/2048) on every extended real
  simp only [Ideal.hostDivf_def, Ideal.ofBits_def, Ideal.ofBits_zero_f32, Cert.MeanSpec.ofBits_2048, zero_add,
    Ideal.div_coe (by norm_num : (2048 : ℝ) ≠ 0), wordIdxA]
  rfl

/-- The reference's second pooled array is the word-axis mean of the options tensor. -/
theorem pooledB_ref (x1 : (⟨S256x64x300, .f32⟩ : BufTy).Contents (Elt Ideal)) :
    (val_main_v5 (F := Ideal) x1 : S256x300.Idx → EReal) = Cert.MeanSpec.meanB x1 := by
  funext i
  -- entry i is (0.0 + ∑ j, x1 (b, j, d)) / 64.0
  rw [val_main_v5_apply, val_main_v3_apply, val_main_v4_apply, val_main_cst_2_apply, val_main_cst_1_apply]
  -- the literals are the reals 0 and 64; 0 + s = s; s / 64 = s · (1/64) on every extended real
  simp only [Ideal.hostDivf_def, Ideal.ofBits_def, Ideal.ofBits_zero_f32, Cert.MeanSpec.ofBits_64, zero_add,
    Ideal.div_coe (by norm_num : (64 : ℝ) ≠ 0), wordIdxB]
  rfl

end Cert.ReferenceIdeal.RefValue

end
-- ==== Proof.lean ====
/-
  Two pooling kernels against jnp's means. The program pools two tensors over their word axis — article
  [256, 2048, 300] and options [256, 64, 300] → [256, 300] each — and places the two results side by side,
  [256, 600]. The reference divides each word-axis sum by the number of words; the kernels multiply the sum by
  the f32 literal 1/W, and W = 2048 and W = 64 are powers of two, so over the extended reals the literal is exactly
  1/W and the quotient by W is the product with 1/W on every extended real. The first kernel adds the 2048 words
  up in eight chunks of 256 through a running sum that restarts from zero for each tile of 32 batch rows; a sum of
  chunk sums is the whole sum (associativity and commutativity of + only: the precondition is never opened).
  The three programs run to the end with their arguments unchanged: the kernels' program by following the
  buffers' contents through the first kernel, the second kernel and the concatenation; the reference by its
  straight-line run. The same run of the idealized kernels names the result, which is then the reference's.
-/
import proofs.«141562_j26147760898611_1_alg».proof.Defs
import proofs.«141562_j26147760898611_1_alg».proof.Proof.Gen.Kernel
import proofs.«141562_j26147760898611_1_alg».proof.Proof.Gen.KernelIdeal
import proofs.«141562_j26147760898611_1_alg».proof.Proof.Gen.ReferenceIdeal
import proofs.«141562_j26147760898611_1_alg».proof.Proof.Gen.Pre_finite_inputs
import proofs.«141562_j26147760898611_1_alg».proof.Proof.K.Launch
import proofs.«141562_j26147760898611_1_alg».proof.Proof.KI.Launch
import proofs.«141562_j26147760898611_1_alg».proof.Proof.Val.Kernel0
import proofs.«141562_j26147760898611_1_alg».proof.Proof.Val.Kernel1
import proofs.«141562_j26147760898611_1_alg».proof.Proof.Val.Ref

noncomputable section

namespace Cert.Proof

open Idealize.ShloMosaic Idealize.ShloMosaic.TcCoe Idealize.SL.Sem

/-- The word-level program terminates with its arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the two word-axis means side by side: the kernels' write-backs
    leave the means in their result arrays, the reference's quotients are the same means, and the arguments agree. -/
theorem algebraic : Cert.algebraic_KernelIdeal_ReferenceIdeal := by
  intro m ρ m' ρ' _ hagree
  refine ⟨fun c => Cert.KernelIdeal.Hand.W3 m c (Proc.devRef .tc Cert.KernelIdeal.main_v2), ?_, ?_⟩
  · exact (θ_run Cert.KernelIdeal.defs _ _).mono (fun _ h c =>
      ⟨h c _ (Cert.KernelIdeal.Hand.mem_uc Cert.KernelIdeal.main_v2 (by decide)),
       (h c _ (Cert.KernelIdeal.Hand.mem_uc Cert.KernelIdeal.main_arg0 (by decide))).trans (Cert.KernelIdeal.Hand.W3_arg0 m c),
       (h c _ (Cert.KernelIdeal.Hand.mem_uc Cert.KernelIdeal.main_arg1 (by decide))).trans (Cert.KernelIdeal.Hand.W3_arg1 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq]
    unfold Cert.ReferenceIdeal.Read.val_main_v6
    rw [Cert.ReferenceIdeal.RefValue.pooledA_ref, Cert.ReferenceIdeal.RefValue.pooledB_ref, (hagree c).1, (hagree c).2]
    show _ = Cert.KernelIdeal.Hand.W3 m c (Proc.devRef .tc Cert.KernelIdeal.main_v2)
    rw [Cert.KernelIdeal.Hand.W3_v2, Cert.KernelIdeal.Hand.pooledA, Cert.KernelIdeal.Hand.pooledB, Cert.KernelIdeal.Hand.Vin1_arg1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
